-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S32x128x64 .f32 .bf16
  ∧ IdealRules.truncf_extf.Statement Cert.KernelIdeal.S32x128x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x64 : Shape := ⟨3, ![4096, 128, 64]⟩
abbrev S4096x128 : Shape := ⟨2, ![4096, 128]⟩
abbrev S_ : Shape := ⟨0, ![]⟩

class Facts : Prop where
  bcast_S_S4096x128x64 : S_.BroadcastsInDim S4096x128x64 (![] : Fin 0 → Fin S4096x128x64.rank)
  reducesTo_S4096x128x64_S_d0_1_2 : S4096x128x64.ReducesTo [0, 1, 2] S_
  h_S_ : 0 < S_.numel

variable [Facts]

def fn {F : FTy → Type} [FloatOps F] (main_arg0 : FVec F S4096x128x64 .f32) (main_arg1 : FVec F S4096x128x64 .f32) (main_arg2 : IVec S4096x128 1) : IVec S_ 1 :=
  let main_v0 : FVec F S4096x128x64 .f32 := Host.absf main_arg0
  let main_cst : FVec F S_ .f32 := constant S_ .f32 0x7F800000#32
  let main_v1 : FVec F S4096x128x64 .f32 := broadcastInDim S4096x128x64 ![] bcast_S_S4096x128x64 main_cst
  let main_v2 : IVec S4096x128x64 1 := cmpf .olt main_v0 main_v1
  let main_c : IVec S_ 1 := constantI S_ 1 1#1
  let main_v3 : IVec S_ 1 := (fun x v => Host.reduce IntOp.andi x v reducesTo_S4096x128x64_S_d0_1_2 h_S_) main_v2 main_c
  let main_v4 : FVec F S4096x128x64 .f32 := Host.absf main_arg1
  let main_cst_0 : FVec F S_ .f32 := constant S_ .f32 0x7F800000#32
  let main_v5 : FVec F S4096x128x64 .f32 := broadcastInDim S4096x128x64 ![] bcast_S_S4096x128x64 main_cst_0
  let main_v6 : IVec S4096x128x64 1 := cmpf .olt main_v4 main_v5
  let main_c_1 : IVec S_ 1 := constantI S_ 1 1#1
  let main_v7 : IVec S_ 1 := (fun x v => Host.reduce IntOp.andi x v reducesTo_S4096x128x64_S_d0_1_2 h_S_) main_v6 main_c_1
  let main_v8 : IVec S_ 1 := andi main_v3 main_v7
  main_v8
-- ==== Kernel.lean ====
abbrev S4096x128x64 : Shape := ⟨3, ![4096, 128, 64]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S4096x1x1 : Shape := ⟨3, ![4096, 1, 1]⟩
abbrev S2x4096x128x64 : Shape := ⟨4, ![2, 4096, 128, 64]⟩
abbrev S64x128x64 : Shape := ⟨3, ![64, 128, 64]⟩
abbrev S64x128 : Shape := ⟨2, ![64, 128]⟩
abbrev S64x1x1 : Shape := ⟨3, ![64, 1, 1]⟩
abbrev S2x64x128x64 : Shape := ⟨4, ![2, 64, 128, 64]⟩
abbrev S32x128 : Shape := ⟨2, ![32, 128]⟩
abbrev S32x1x1 : Shape := ⟨3, ![32, 1, 1]⟩
abbrev S32x128x128 : Shape := ⟨3, ![32, 128, 128]⟩
abbrev S32x1x128 : Shape := ⟨3, ![32, 1, 128]⟩
abbrev S32x128x64 : Shape := ⟨3, ![32, 128, 64]⟩
abbrev S32x128x1 : Shape := ⟨3, ![32, 128, 1]⟩
abbrev S1x32x128x64 : Shape := ⟨4, ![1, 32, 128, 64]⟩

abbrev nBuf : Space → Nat
  | .hbm => 26
  | .vmem => 10
  | .smem => 0
  | _ => 0

abbrev bufTy : (tb : Table) → Fin (tcTables nBuf tb) → BufTy
  | .hbm, ⟨0, _⟩ => ⟨S4096x128x64, .f32⟩
  | .hbm, ⟨1, _⟩ => ⟨S4096x128x64, .f32⟩
  | .hbm, ⟨2, _⟩ => ⟨S4096x128, .i1⟩
  | .hbm, ⟨3, _⟩ => ⟨S4096x128, .i32⟩
  | .hbm, ⟨4, _⟩ => ⟨S_, .i32⟩
  | .hbm, ⟨5, _⟩ => ⟨S4096x128, .i32⟩
  | .hbm, ⟨6, _⟩ => ⟨S4096x128, .i32⟩
  | .hbm, ⟨7, _⟩ => ⟨S_, .i32⟩
  | .hbm, ⟨8, _⟩ => ⟨S_, .i32⟩
  | .hbm, ⟨9, _⟩ => ⟨S4096x128, .i32⟩
  | .hbm, ⟨10, _⟩ => ⟨S4096x128, .i32⟩
  | .hbm, ⟨11, _⟩ => ⟨S_, .i32⟩
  | .hbm, ⟨12, _⟩ => ⟨S_, .i32⟩
  | .hbm, ⟨13, _⟩ => ⟨S4096x128, .i32⟩
  | .hbm, ⟨14, _⟩ => ⟨S4096x128, .i32⟩
  | .hbm, ⟨15, _⟩ => ⟨S_, .i32⟩
  | .hbm, ⟨16, _⟩ => ⟨S4096, .i32⟩
  | .hbm, ⟨17, _⟩ => ⟨S4096x1, .i32⟩
  | .hbm, ⟨18, _⟩ => ⟨S4096x1x1, .i32⟩
  | .hbm, ⟨19, _⟩ => ⟨S_, .i32⟩
  | .hbm, ⟨20, _⟩ => ⟨S4096x128, .i32⟩
  | .hbm, ⟨21, _⟩ => ⟨S4096x128, .i1⟩
  | .hbm, ⟨22, _⟩ => ⟨S4096x128, .i32⟩
  | .hbm, ⟨23, _⟩ => ⟨S4096x128, .i32⟩
  | .hbm, ⟨24, _⟩ => ⟨S4096x128, .i32⟩
  | .hbm, ⟨25, _⟩ => ⟨S2x4096x128x64, .f32⟩
  | .local _ .vmem, ⟨0, _⟩ => ⟨S64x128x64, .f32⟩
  | .local _ .vmem, ⟨1, _⟩ => ⟨S64x128x64, .f32⟩
  | .local _ .vmem, ⟨2, _⟩ => ⟨S64x128x64, .f32⟩
  | .local _ .vmem, ⟨3, _⟩ => ⟨S64x128x64, .f32⟩
  | .local _ .vmem, ⟨4, _⟩ => ⟨S64x128, .i32⟩
  | .local _ .vmem, ⟨5, _⟩ => ⟨S64x128, .i32⟩
  | .local _ .vmem, ⟨6, _⟩ => ⟨S64x1x1, .i32⟩
  | .local _ .vmem, ⟨7, _⟩ => ⟨S64x1x1, .i32⟩
  | .local _ .vmem, ⟨8, _⟩ => ⟨S2x64x128x64, .f32⟩
  | .local _ .vmem, ⟨9, _⟩ => ⟨S2x64x128x64, .f32⟩
  | _, _ => ⟨S4096x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_call0_call0_c : Ref sig .tc := ⟨.hbm, 7, rfl⟩
abbrev main_call0_call0_v0 : Ref sig .tc := ⟨.hbm, 8, rfl⟩
abbrev main_v3 : Ref sig .tc := ⟨.hbm, 9, rfl⟩
abbrev main_v4 : Ref sig .tc := ⟨.hbm, 10, rfl⟩
abbrev main_call1_call0_c : Ref sig .tc := ⟨.hbm, 11, rfl⟩
abbrev main_call1_call0_v0 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  natLt_1_32 : 1 < 32
  bcast_S_S4096x128 : S_.BroadcastsInDim S4096x128 (![] : Fin 0 → Fin S4096x128.rank)
  bcast_S_S_ : S_.BroadcastsInDim S_ (![] : Fin 0 → Fin S_.rank)
  reduceWindows_S4096x128_S4096x128_w1s1p0_0_w128s1p127_0 : S4096x128.ReduceWindows (![1, 128] : Fin 2 → Nat) ![1, 1] ![0, 127] ![0, 0] S4096x128
  h_S_ : 0 < S_.numel
  reducesTo_S4096x128_S4096_d1 : S4096x128.ReducesTo [1] S4096
  bcast_S4096_S4096x1_0 : S4096.BroadcastsInDim S4096x1 (![0] : Fin 1 → Fin S4096x1.rank)
  shapeCasts_S4096x1_S4096x1x1 : S4096x1.ShapeCasts S4096x1x1
  bcast_S4096x1_S4096x128_0_1 : S4096x1.BroadcastsInDim S4096x128 (![0, 1] : Fin 2 → Fin S4096x128.rank)
  inb_S64x128_S32x128_0_0 : ∀ a, (![0, 0] : Fin 2 → Nat) a + S32x128.size a ≤ S64x128.size a
  h_S32x128 : 0 < S32x128.numel
  shapeCasts_S32x128_S32x128 : S32x128.ShapeCasts S32x128
  inb_S64x1x1_S32x1x1_0_0_0 : ∀ a, (![0, 0, 0] : Fin 3 → Nat) a + S32x1x1.size a ≤ S64x1x1.size a
  h_S32x1x1 : 0 < S32x1x1.numel
  shapeCasts_S32x1x1_S32x1x1 : S32x1x1.ShapeCasts S32x1x1
  iota_S32x128x128_d1_w32 : S32x128x128.Iotas .tc 32 [1]
  shapeCasts_S32x128_S32x1x128 : S32x128.ShapeCasts S32x1x128
  broadcasts_S32x1x128_S32x128x128 : S32x1x128.Broadcasts S32x128x128
  bitsLt_bf16_f32 : FTy.bits .bf16 < FTy.bits .f32
  inb_S64x128x64_S32x128x64_0_0_0 : ∀ a, (![0, 0, 0] : Fin 3 → Nat) a + S32x128x64.size a ≤ S64x128x64.size a
  h_S32x128x64 : 0 < S32x128x64.numel
  iota_S32x128x64_d2_w32 : S32x128x64.Iotas .tc 32 [2]
  iota_S32x128x64_d1_w32 : S32x128x64.Iotas .tc 32 [1]
  broadcasts_S32x1x1_S32x128x64 : S32x1x1.Broadcasts S32x128x64
  reduces_S32x128x64_S32x128 : S32x128x64.Reduces [2] S32x128
  shapeCasts_S32x128_S32x128x1 : S32x128.ShapeCasts S32x128x1
  shapeCasts_S32x128x1_S32x128x1 : S32x128x1.ShapeCasts S32x128x1
  broadcasts_S32x128x1_S32x128x64 : S32x128x1.Broadcasts S32x128x64
  inb_S2x64x128x64_S1x32x128x64_0_0_0_0 : ∀ a, (![0, 0, 0, 0] : Fin 4 → Nat) a + S1x32x128x64.size a ≤ S2x64x128x64.size a
  h_S1x32x128x64 : 0 < S1x32x128x64.numel
  shapeCasts_S1x32x128x64_S32x128x64 : S1x32x128x64.ShapeCasts S32x128x64
  shapeCasts_S32x128x64_S1x32x128x64 : S32x128x64.ShapeCasts S1x32x128x64
  inb_S2x64x128x64_S1x32x128x64_1_0_0_0 : ∀ a, (![1, 0, 0, 0] : Fin 4 → Nat) a + S1x32x128x64.size a ≤ S2x64x128x64.size a
  inb_S64x128_S32x128_32_0 : ∀ a, (![32, 0] : Fin 2 → Nat) a + S32x128.size a ≤ S64x128.size a
  inb_S64x1x1_S32x1x1_32_0_0 : ∀ a, (![32, 0, 0] : Fin 3 → Nat) a + S32x1x1.size a ≤ S64x1x1.size a
  inb_S64x128x64_S32x128x64_32_0_0 : ∀ a, (![32, 0, 0] : Fin 3 → Nat) a + S32x128x64.size a ≤ S64x128x64.size a
  inb_S2x64x128x64_S1x32x128x64_0_32_0_0 : ∀ a, (![0, 32, 0, 0] : Fin 4 → Nat) a + S1x32x128x64.size a ≤ S2x64x128x64.size a
  inb_S2x64x128x64_S1x32x128x64_1_32_0_0 : ∀ a, (![1, 32, 0, 0] : Fin 4 → Nat) a + S1x32x128x64.size a ≤ S2x64x128x64.size a
  dot_S32x128x128_S32x128x64_S32x128x64_2_1_1_2_0_0_wf : DotDims.WF S32x128x128 S32x128x64 S32x128x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x64.size a ≤ S4096x128x64.size a
  hwx0_0 : ∀ i : grid0.Coords, EltTy.bits .f32 = 32 ∨ (Rect.block (s := S4096x128x64) S64x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x64.size a ≤ S4096x128x64.size a
  hwx0_1 : ∀ i : grid0.Coords, EltTy.bits .f32 = 32 ∨ (Rect.block (s := S4096x128x64) S64x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S4096x128.size a
  hwx0_2 : ∀ i : grid0.Coords, EltTy.bits .i32 = 32 ∨ (Rect.block (s := S4096x128) S64x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1x1.size a ≤ S4096x1x1.size a
  hwx0_3 : ∀ i : grid0.Coords, EltTy.bits .i32 = 32 ∨ (Rect.block (s := S4096x1x1) S64x1x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x64x128x64.size a ≤ S2x4096x128x64.size a
  hwx0_4 : ∀ i : grid0.Coords, EltTy.bits .f32 = 32 ∨ (Rect.block (s := S2x4096x128x64) S2x64x128x64.size (cc0_transform_4 i) (hinb0_4 i)).WholeWords (EltTy.packing .f32)

variable [Facts₀]

def dot_S32x128x128_S32x128x64_S32x128x64_2_1_1_2_0_0 : DotDims S32x128x128 S32x128x64 S32x128x64 where
  lhsContracting := [2]
  rhsContracting := [1]
  lhsNonContracting := [1]
  rhsNonContracting := [2]
  lhsBatch := [0]
  rhsBatch := [0]
  wf := dot_S32x128x128_S32x128x64_S32x128x64_2_1_1_2_0_0_wf

abbrev win0_0 : Pipeline.Window sig grid0 :=
  Pipeline.Window.ofSpec (Memref.whole main_arg0) S64x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2x64x128x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x128x64 : Shape := ⟨3, ![4096, 128, 64]⟩
abbrev S4096x128 : Shape := ⟨2, ![4096, 128]⟩
abbrev S4096x128x1 : Shape := ⟨3, ![4096, 128, 1]⟩
abbrev S_ : Shape := ⟨0, ![]⟩
abbrev S1 : Shape := ⟨1, ![1]⟩
abbrev S1x1x1 : Shape := ⟨3, ![1, 1, 1]⟩
abbrev S4096 : Shape := ⟨1, ![4096]⟩
abbrev S4096x1 : Shape := ⟨2, ![4096, 1]⟩
abbrev S128 : Shape := ⟨1, ![128]⟩
abbrev S1x128 : Shape := ⟨2, ![1, 128]⟩
abbrev S64 : Shape := ⟨1, ![64]⟩
abbrev S4096x128x63 : Shape := ⟨3, ![4096, 128, 63]⟩
abbrev S1x4096x128x64 : Shape := ⟨4, ![1, 4096, 128, 64]⟩
abbrev S2x4096x128x64 : Shape := ⟨4, ![2, 4096, 128, 64]⟩

abbrev nBuf : Space → Nat
  | .hbm => 66
  | .vmem => 0
  | .smem => 0
  | _ => 0

abbrev bufTy : (tb : Table) → Fin (tcTables nBuf tb) → BufTy
  | .hbm, ⟨0, _⟩ => ⟨S4096x128x64, .f32⟩
  | .hbm, ⟨1, _⟩ => ⟨S4096x128x64, .f32⟩
  | .hbm, ⟨2, _⟩ => ⟨S4096x128, .i1⟩
  | .hbm, ⟨3, _⟩ => ⟨S4096x128, .i32⟩
  | .hbm, ⟨4, _⟩ => ⟨S4096x128, .i32⟩
  | .hbm, ⟨5, _⟩ => ⟨S4096x128, .i32⟩
  | .hbm, ⟨6, _⟩ => ⟨S4096x128, .i32⟩
  | .hbm, ⟨7, _⟩ => ⟨S4096x128x1, .i32⟩
  | .hbm, ⟨8, _⟩ => ⟨S_, .i32⟩
  | .hbm, ⟨9, _⟩ => ⟨S4096x128x1, .i32⟩
  | .hbm, ⟨10, _⟩ => ⟨S4096x128x1, .i1⟩
  | .hbm, ⟨11, _⟩ => ⟨S_, .i32⟩
  | .hbm, ⟨12, _⟩ => ⟨S4096x128x1, .i32⟩
  | .hbm, ⟨13, _⟩ => ⟨S4096x128x1, .i32⟩
  | .hbm, ⟨14, _⟩ => ⟨S4096x128x1, .i32⟩
  | .hbm, ⟨15, _⟩ => ⟨S1, .i32⟩
  | .hbm, ⟨16, _⟩ => ⟨S_, .i32⟩
  | .hbm, ⟨17, _⟩ => ⟨S4096x128x1, .i32⟩
  | .hbm, ⟨18, _⟩ => ⟨S4096x128x1, .i1⟩
  | .hbm, ⟨19, _⟩ => ⟨S1x1x1, .i32⟩
  | .hbm, ⟨20, _⟩ => ⟨S4096x128x1, .i32⟩
  | .hbm, ⟨21, _⟩ => ⟨S4096x128x1, .i1⟩
  | .hbm, ⟨22, _⟩ => ⟨S4096x128x1, .i1⟩
  | .hbm, ⟨23, _⟩ => ⟨S_, .i1⟩
  | .hbm, ⟨24, _⟩ => ⟨S4096x128, .i1⟩
  | .hbm, ⟨25, _⟩ => ⟨S4096x128x64, .f32⟩
  | .hbm, ⟨26, _⟩ => ⟨S4096x128x64, .i1⟩
  | .hbm, ⟨27, _⟩ => ⟨S_, .f32⟩
  | .hbm, ⟨28, _⟩ => ⟨S4096x128x64, .f32⟩
  | .hbm, ⟨29, _⟩ => ⟨S4096x128x64, .f32⟩
  | .hbm, ⟨30, _⟩ => ⟨S4096x128, .i32⟩
  | .hbm, ⟨31, _⟩ => ⟨S_, .i32⟩
  | .hbm, ⟨32, _⟩ => ⟨S4096, .i32⟩
  | .hbm, ⟨33, _⟩ => ⟨S4096x1, .i32⟩
  | .hbm, ⟨34, _⟩ => ⟨S128, .i32⟩
  | .hbm, ⟨35, _⟩ => ⟨S1x128, .i32⟩
  | .hbm, ⟨36, _⟩ => ⟨S_, .i32⟩
  | .hbm, ⟨37, _⟩ => ⟨S4096x1, .i32⟩
  | .hbm, ⟨38, _⟩ => ⟨S4096x1, .i32⟩
  | .hbm, ⟨39, _⟩ => ⟨S4096x128, .i32⟩
  | .hbm, ⟨40, _⟩ => ⟨S4096x128, .i32⟩
  | .hbm, ⟨41, _⟩ => ⟨S4096x128, .i1⟩
  | .hbm, ⟨42, _⟩ => ⟨S_, .f32⟩
  | .hbm, ⟨43, _⟩ => ⟨S64, .f32⟩
  | .hbm, ⟨44, _⟩ => ⟨S_, .i32⟩
  | .hbm, ⟨45, _⟩ => ⟨S1, .i32⟩
  | .hbm, ⟨46, _⟩ => ⟨S_, .f32⟩
  | .hbm, ⟨47, _⟩ => ⟨S64, .f32⟩
  | .hbm, ⟨48, _⟩ => ⟨S4096x128x1, .i1⟩
  | .hbm, ⟨49, _⟩ => ⟨S4096x128x64, .i1⟩
  | .hbm, ⟨50, _⟩ => ⟨S4096x128x64, .f32⟩
  | .hbm, ⟨51, _⟩ => ⟨S4096x128x64, .f32⟩
  | .hbm, ⟨52, _⟩ => ⟨S4096x128x63, .f32⟩
  | .hbm, ⟨53, _⟩ => ⟨S_, .f32⟩
  | .hbm, ⟨54, _⟩ => ⟨S4096x128x63, .f32⟩
  | .hbm, ⟨55, _⟩ => ⟨S4096x128x63, .f32⟩
  | .hbm, ⟨56, _⟩ => ⟨S_, .f32⟩
  | .hbm, ⟨57, _⟩ => ⟨S4096x128, .f32⟩
  | .hbm, ⟨58, _⟩ => ⟨S4096x128x1, .f32⟩
  | .hbm, ⟨59, _⟩ => ⟨S_, .f32⟩
  | .hbm, ⟨60, _⟩ => ⟨S4096x128x1, .f32⟩
  | .hbm, ⟨61, _⟩ => ⟨S4096x128x1, .f32⟩
  | .hbm, ⟨62, _⟩ => ⟨S4096x128x64, .f32⟩
  | .hbm, ⟨63, _⟩ => ⟨S1x4096x128x64, .f32⟩
  | .hbm, ⟨64, _⟩ => ⟨S1x4096x128x64, .f32⟩
  | .hbm, ⟨65, _⟩ => ⟨S2x4096x128x64, .f32⟩
  | _, _ => ⟨S4096x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_v1 : Ref sig .tc := ⟨.hbm, 6, rfl⟩
abbrev main_v2 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_c_1 : Ref sig .tc := ⟨.hbm, 15, rfl⟩
abbrev main_call1_c_2 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_c_3 : Ref sig .tc := ⟨.hbm, 23, rfl⟩
abbrev main_call1_v11 : Ref sig .tc := ⟨.hbm, 24, rfl⟩
abbrev main_call1_v12 : Ref sig .tc := ⟨.hbm, 25, rfl⟩
abbrev main_call1_v13 : Ref sig .tc := ⟨.hbm, 26, rfl⟩
abbrev main_call1_cst : Ref sig .tc := ⟨.hbm, 27, rfl⟩
abbrev main_call1_v14 : Ref sig .tc := ⟨.hbm, 28, rfl⟩
abbrev main_v3 : Ref sig .tc := ⟨.hbm, 29, rfl⟩
abbrev main_v4 : Ref sig .tc := ⟨.hbm, 30, rfl⟩
abbrev main_c : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c_0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_v17 : Ref sig .tc := ⟨.hbm, 48, rfl⟩
abbrev main_call2_v0 : Ref sig .tc := ⟨.hbm, 49, rfl⟩
abbrev main_call2_v1 : Ref sig .tc := ⟨.hbm, 50, rfl⟩
abbrev main_v18 : Ref sig .tc := ⟨.hbm, 51, rfl⟩
abbrev main_v19 : Ref sig .tc := ⟨.hbm, 52, rfl⟩
abbrev main_cst_3 : Ref sig .tc := ⟨.hbm, 53, rfl⟩
abbrev main_v20 : Ref sig .tc := ⟨.hbm, 54, rfl⟩
abbrev main_v21 : Ref sig .tc := ⟨.hbm, 55, rfl⟩
abbrev main_cst_4 : Ref sig .tc := ⟨.hbm, 56, rfl⟩
abbrev main_v22 : Ref sig .tc := ⟨.hbm, 57, rfl⟩
abbrev main_v23 : Ref sig .tc := ⟨.hbm, 58, rfl⟩
abbrev main_cst_5 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩

abbrev nD : Nat := 1
abbrev τ : Topo := Topo.v7x

variable {F : FTy → Type} [FloatOps F]

class Facts₀ : Prop where
  natLt_1_32 : 1 < 32
  bcast_S4096x128_S4096x128x1_0_1 : S4096x128.BroadcastsInDim S4096x128x1 (![0, 1] : Fin 2 → Fin S4096x128x1.rank)
  bcast_S_S4096x128x1 : S_.BroadcastsInDim S4096x128x1 (![] : Fin 0 → Fin S4096x128x1.rank)
  bcast_S1_S1x1x1_2 : S1.BroadcastsInDim S1x1x1 (![2] : Fin 1 → Fin S1x1x1.rank)
  bcast_S1x1x1_S4096x128x1_0_1_2 : S1x1x1.BroadcastsInDim S4096x128x1 (![0, 1, 2] : Fin 3 → Fin S4096x128x1.rank)
  reducesTo_S4096x128x1_S4096x128_d2 : S4096x128x1.ReducesTo [2] S4096x128
  h_S_ : 0 < S_.numel
  bcast_S4096x128_S4096x128x64_0_1 : S4096x128.BroadcastsInDim S4096x128x64 (![0, 1] : Fin 2 → Fin S4096x128x64.rank)
  bcast_S_S4096x128x64 : S_.BroadcastsInDim S4096x128x64 (![] : Fin 0 → Fin S4096x128x64.rank)
  reducesTo_S4096x128_S4096_d1 : S4096x128.ReducesTo [1] S4096
  bcast_S4096_S4096x1_0 : S4096.BroadcastsInDim S4096x1 (![0] : Fin 1 → Fin S4096x1.rank)
  bcast_S128_S1x128_1 : S128.BroadcastsInDim S1x128 (![1] : Fin 1 → Fin S1x128.rank)
  bcast_S_S4096x1 : S_.BroadcastsInDim S4096x1 (![] : Fin 0 → Fin S4096x1.rank)
  bcast_S1x128_S4096x128_0_1 : S1x128.BroadcastsInDim S4096x128 (![0, 1] : Fin 2 → Fin S4096x128.rank)
  bcast_S4096x1_S4096x128_0_1 : S4096x1.BroadcastsInDim S4096x128 (![0, 1] : Fin 2 → Fin S4096x128.rank)
  bcast_S_S64 : S_.BroadcastsInDim S64 (![] : Fin 0 → Fin S64.rank)
  bcast_S_S1 : S_.BroadcastsInDim S1 (![] : Fin 0 → Fin S1.rank)
  bcast_S4096x128x1_S4096x128x64_0_1_2 : S4096x128x1.BroadcastsInDim S4096x128x64 (![0, 1, 2] : Fin 3 → Fin S4096x128x64.rank)
  bcast_S64_S4096x128x64_2 : S64.BroadcastsInDim S4096x128x64 (![2] : Fin 1 → Fin S4096x128x64.rank)
  slices_S4096x128x64_S4096x128x63_0_0_1 : S4096x128x64.Slices ![0, 0, 1] S4096x128x63
  bcast_S_S4096x128x63 : S_.BroadcastsInDim S4096x128x63 (![] : Fin 0 → Fin S4096x128x63.rank)
  reducesTo_S4096x128x63_S4096x128_d2 : S4096x128x63.ReducesTo [2] S4096x128
  concatenates_S4096x128x1_S4096x128x63_S4096x128x64_d2 : Shape.Concatenates [S4096x128x1, S4096x128x63] S4096x128x64 2
  bcast_S4096x128x64_S1x4096x128x64_1_2_3 : S4096x128x64.BroadcastsInDim S1x4096x128x64 (![1, 2, 3] : Fin 3 → Fin S1x4096x128x64.rank)
  concatenates_S1x4096x128x64_S1x4096x128x64_S2x4096x128x64_d0 : Shape.Concatenates [S1x4096x128x64, S1x4096x128x64] S2x4096x128x64 0
  gather_S4096x128x64_S4096x128x1_S4096x128x64_2_1_0_0_1_2_1164_wf : GatherDims.WF S4096x128x64 S4096x128x1 S4096x128x64 [2] [1] [0] [1] [0] 2 ![1, 1, 64]
  scatter_S64_S1_S__n_0_0_0_wf : ScatterDims.WF S64 S1 S_ [] [0] [0] 0

variable [Facts₀]

def comparator_i32_i32_d1 : BitVec 32 × BitVec 32 → BitVec 32 × BitVec 32 → BitVec 1 :=
  fun l r =>
    let v2 := IntOp.cmpi .slt l.1 r.1
    v2
def gather_S4096x128x64_S4096x128x1_S4096x128x64_2_1_0_0_1_2_1164 : GatherDims S4096x128x64 S4096x128x1 S4096x128x64 where
  offsetDims := [2]
  collapsedSliceDims := [1]
  operandBatchingDims := [0]
  startIndicesBatchingDims := [0]
  startIndexMap := [1]
  indexVectorDim := 2
  sliceSizes := ![1, 1, 64]
  wf := gather_S4096x128x64_S4096x128x1_S4096x128x64_2_1_0_0_1_2_1164_wf
def scatter_S64_S1_S__n_0_0_0 : ScatterDims S64 S1 S_ where
  updateWindowDims := []
  insertedWindowDims := [0]
  scatterDimsToOperandDims := [0]
  indexVectorDim := 0
  wf := scatter_S64_S1_S__n_0_0_0_wf

class Facts : Prop extends Facts₀ where

variable [Facts]
-- ==== Proof.Spec.lean ====
/-
  The deletion channel's result, stated once, as ONE function of the three argument arrays, index by index.

  A row `b` holds 128 symbols (each a vector over a vocabulary of 64) and 128 deletion flags. The kept symbols move to the
  front in their order and the deleted ones go behind them in theirs: the stable sort of the positions by the flag. With
  `nkept` kept symbols, output position `j` of the message half holds the symbol that sorts to `j` when `j < nkept`, and
  the end-of-sequence vector (1 at vocabulary entry 0, else 0) from `nkept` on. The probability half scales every entry
  but entry 0 by the constant `c9` (the single-precision word next to 9/10) and puts in entry 0 what is left of 1.

  Two descriptions of that permutation meet here. `src` is the reference's: the source of sorted position `j`, the
  stable sort by "a kept position sorts strictly before a deleted one". `dest` is the kernel's: the slot of position `k`,
  counted — the kept positions before `k` if `k` is kept, all kept positions plus the deleted ones before `k` if not.
  That each is the other's inverse is proved elsewhere; here are only the definitions, and the kernel's per-row
  arithmetic (`kMsg`, `kProb`) as it comes out of its matrix products and selects.
-/
import Idealize.ShloMosaic.PureOps.Ideal
import Idealize.ShloMosaic.Lib.ValueIdx

noncomputable section

open scoped BigOperators

namespace Cert.Deletion

open Idealize.ShloMosaic Idealize.ShloMosaic.ValueIdx

abbrev SMsg : Shape := ⟨3, ![4096, 128, 64]⟩
abbrev SMask : Shape := ⟨2, ![4096, 128]⟩
abbrev SCnt : Shape := ⟨3, ![4096, 1, 1]⟩
abbrev SOut : Shape := ⟨4, ![2, 4096, 128, 64]⟩

/-- Position `k` of row `b` is deleted. -/
def del (mask : SMask.Idx → BitVec 1) (b : Fin 4096) (k : Fin 128) : Bool := mask (ix2 b k) == 1#1

/-- How many positions of row `b` are kept. -/
def nkept (mask : SMask.Idx → BitVec 1) (b : Fin 4096) : Nat :=
  (Finset.univ.filter fun k : Fin 128 => del mask b k = false).card

/-- Position `k` sorts strictly before position `k'`: `k` is kept and `k'` is deleted. -/
def before (mask : SMask.Idx → BitVec 1) (b : Fin 4096) (k k' : Fin 128) : Bool := !del mask b k && del mask b k'

/-- The position whose symbol the stable sort by `before` puts at `j`. -/
def src (mask : SMask.Idx → BitVec 1) (b : Fin 4096) (j : Fin 128) : Fin 128 := sortedFrom (before mask b) j

/-- The slot position `k` goes to, by counting. -/
def dest (mask : SMask.Idx → BitVec 1) (b : Fin 4096) (k : Fin 128) : Nat :=
  if del mask b k = true then
    nkept mask b + (Finset.univ.filter fun q : Fin 128 => q < k ∧ del mask b q = true).card
  else (Finset.univ.filter fun q : Fin 128 => q < k ∧ del mask b q = false).card

/-- The end-of-sequence vector. -/
def eos (v : Fin 64) : EReal := if v.val = 0 then 1 else 0

/-- The scale of the probability half, as the word both programs carry. -/
def c9 : EReal := Ideal.ofBits .f32 0x3F666666#32

/-- The message half at row `b`, position `j`, vocabulary entry `v`. -/
def msgOut (msg : SMsg.Idx → EReal) (mask : SMask.Idx → BitVec 1) (b : Fin 4096) (j : Fin 128) (v : Fin 64) : EReal :=
  if nkept mask b ≤ j.val then eos v else msg (ix3 b (src mask b j) v)

/-- The probability half at row `b`, position `j`, vocabulary entry `v`. -/
def probOut (probs : SMsg.Idx → EReal) (b : Fin 4096) (j : Fin 128) (v : Fin 64) : EReal :=
  if v.val = 0 then 1 - ∑ k : Fin 63, probs (ix3 b j k.succ) * c9 else probs (ix3 b j v) * c9

/-- The result: the two halves stacked. -/
def out (msg probs : SMsg.Idx → EReal) (mask : SMask.Idx → BitVec 1) : SOut.Idx → EReal := fun i =>
  if (i 0).val = 0 then msgOut msg mask ⟨(i 1).val, (i 1).isLt⟩ ⟨(i 2).val, (i 2).isLt⟩ ⟨(i 3).val, (i 3).isLt⟩
  else probOut probs ⟨(i 1).val, (i 1).isLt⟩ ⟨(i 2).val, (i 2).isLt⟩ ⟨(i 3).val, (i 3).isLt⟩

theorem out_msg (msg probs : SMsg.Idx → EReal) (mask : SMask.Idx → BitVec 1) (b : Fin 4096) (j : Fin 128) (v : Fin 64) :
    out msg probs mask (ix4 (0 : Fin 2) b j v) = msgOut msg mask b j v := rfl

theorem out_prob (msg probs : SMsg.Idx → EReal) (mask : SMask.Idx → BitVec 1) (b : Fin 4096) (j : Fin 128) (v : Fin 64) :
    out msg probs mask (ix4 (1 : Fin 2) b j v) = probOut probs b j v := rfl

/-! ## The kernel's arithmetic on one row -/

/-- One row of the kernel's message half: `d k` is the slot word of position `k`, `nk` the kept count as a word, `x k v`
    the row's symbols. Position `j` holds the end-of-sequence vector from `nk` on (a signed comparison of words), and
    before it two sums over the positions that the one-hot row "slot of `k` is `j`" selects: of the symbols, and of
    the symbols' differences from themselves (the low parts of a split product, zero on real symbols). -/
def kMsg (d : Fin 128 → BitVec 32) (nk : BitVec 32) (x : Fin 128 → Fin 64 → EReal) (j : Fin 128) (v : Fin 64) : EReal :=
  if nk.toInt ≤ (j.val : ℤ) then eos v
  else (∑ k : Fin 128, (if d k = BitVec.ofNat 32 j.val then (1 : EReal) else 0) * x k v)
    + ∑ k : Fin 128, (if d k = BitVec.ofNat 32 j.val then (1 : EReal) else 0) * (x k v - x k v)

/-- One position of the kernel's probability half: `p v` the position's probabilities. Entry 0 is 1 less the sum over
    all 64 entries of the scaled probabilities with entry 0's masked to zero. -/
def kProb (p : Fin 64 → EReal) (v : Fin 64) : EReal :=
  if v.val = 0 then 1 - ∑ v' : Fin 64, (if v'.val = 0 then (0 : EReal) else p v' * c9) else p v * c9

/-- The kernel's result array from the arrays its region finds: the two argument arrays, the slot words and the kept
    counts. -/
def kOut (x0 x1 : SMsg.Idx → EReal) (d : SMask.Idx → BitVec 32) (nk : SCnt.Idx → BitVec 32) : SOut.Idx → EReal := fun i =>
  if (i 0).val = 0 then
    kMsg (fun k => d (ix2 (⟨(i 1).val, (i 1).isLt⟩ : Fin 4096) k)) (nk (ix3 (⟨(i 1).val, (i 1).isLt⟩ : Fin 4096) (0 : Fin 1) (0 : Fin 1)))
      (fun k v => x0 (ix3 (⟨(i 1).val, (i 1).isLt⟩ : Fin 4096) k v)) ⟨(i 2).val, (i 2).isLt⟩ ⟨(i 3).val, (i 3).isLt⟩
  else kProb (fun v => x1 (ix3 (⟨(i 1).val, (i 1).isLt⟩ : Fin 4096) (⟨(i 2).val, (i 2).isLt⟩ : Fin 128) v)) ⟨(i 3).val, (i 3).isLt⟩

theorem kOut_msg (x0 x1 : SMsg.Idx → EReal) (d : SMask.Idx → BitVec 32) (nk : SCnt.Idx → BitVec 32) (b : Fin 4096) (j : Fin 128) (v : Fin 64) :
    kOut x0 x1 d nk (ix4 (0 : Fin 2) b j v)
      = kMsg (fun k => d (ix2 b k)) (nk (ix3 b (0 : Fin 1) (0 : Fin 1))) (fun k v => x0 (ix3 b k v)) j v := rfl

theorem kOut_prob (x0 x1 : SMsg.Idx → EReal) (d : SMask.Idx → BitVec 32) (nk : SCnt.Idx → BitVec 32) (b : Fin 4096) (j : Fin 128) (v : Fin 64) :
    kOut x0 x1 d nk (ix4 (1 : Fin 2) b j v) = kProb (fun v => x1 (ix3 b j v)) v := rfl

end Cert.Deletion

end
-- ==== Proof.LibSortRank.lean ====
/-
  Ranks in a stable sort of positions.

  A stable sort of the positions `0 … n-1` by a key alone leaves positions of equal keys in their own order, so it is the
  sort by the key and then the position (`sortedFrom_key_eq_key_then_position`): the two relations differ only where a
  LATER position is asked whether it goes before an EARLIER one of the same key, and the insertion sort never asks that
  of the increasing list of positions the other way round (`stableSort_congr_of_pairwise`).

  Under a strict total order the sorted list has no two entries out of order, so the entry at `i` is before the entry at
  `j` exactly when `i < j` (`before_sortedFrom_iff`); counting through the sorting bijection, the number of positions
  before the one that lands at `j` is `j` (`card_before_sortedFrom`): a position's rank is where it lands.
-/
import Idealize.ShloMosaic.Lib.SortPrefix
import Mathlib.Order.Interval.Finset.Fin
import Mathlib.Data.List.FinRange

namespace Idealize.ShloMosaic

/-- Two relations sort a list alike when they agree wherever a later element of the list is asked against an
    earlier one: inserting the head into the sorted tail only asks the tail's elements against the head. -/
theorem stableSort_congr_of_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- STABILITY: the stable sort of the positions by a key alone is the sort by the key and then the position. -/
theorem sortedFrom_key_eq_key_then_position {n : Nat} {κ : Type} [DecidableEq κ] (lt : κ → κ → Bool) (key : Fin n → κ) :
    sortedFrom (fun k k' : Fin n => lt (key k) (key k'))
      = sortedFrom (fun k k' : Fin n => lt (key k) (key k') || (decide (key k = key k') && decide (k < k'))) := by
  have e : sortPositions n (fun k k' : Fin n => lt (key k) (key k'))
      = sortPositions n (fun k k' : Fin n => lt (key k) (key k') || (decide (key k = key k') && decide (k < k'))) := by
    unfold sortPositions
    refine stableSort_congr_of_pairwise _ _ _ ((List.pairwise_lt_finRange n).imp ?_)
    intro a b hab
    have hba : decide (b < a) = false := decide_eq_false (not_lt.mpr (le_of_lt hab))
    simp [hba]
  funext j
  unfold sortedFrom
  rw [List.get_of_eq e]
  rfl

namespace StrictTotalBefore

variable {n : Nat} {B : Fin n → Fin n → Bool}

/-- In the sort by a strict total order, the entry at `i` is before the entry at `j` exactly when `i < j`. -/
theorem before_sortedFrom_iff (hB : StrictTotalBefore B) (i j : Fin n) :
    B (sortedFrom B i) (sortedFrom B j) = true ↔ i < j := by
  have hno : ∀ a b : Fin n, a < b → B (sortedFrom B b) (sortedFrom B a) = false := fun a b hab =>
    sortedFrom_noInversion B B (fun x y h => hB.asymm x y h) (fun _ _ h => h) hB.negTrans a b hab
  constructor
  · intro h
    by_contra hij
    rcases lt_or_eq_of_le (not_lt.mp hij) with hlt | heq
    · rw [hno j i hlt] at h; exact absurd h (by decide)
    · rw [heq, hB.irrefl] at h; exact absurd h (by decide)
  · intro hij
    have hne : sortedFrom B i ≠ sortedFrom B j := fun e => (ne_of_lt hij) (sortedFrom_injective B e)
    rcases hB.total _ _ hne with h | h
    · exact h
    · rw [hno i j hij] at h; exact absurd h (by decide)

/-- A position's RANK is where it lands: exactly `j` positions are before the one the sort puts at `j`. -/
theorem card_before_sortedFrom (hB : StrictTotalBefore B) (j : Fin n) :
    (Finset.univ.filter fun q : Fin n => B q (sortedFrom B j) = true).card = j.val := by
  have hbij : Function.Bijective (sortedFrom B) := ⟨sortedFrom_injective B, sortedFrom_surjective B⟩
  rw [← Finset.card_bijective (s := Finset.univ.filter fun i : Fin n => i < j) (sortedFrom B) hbij (fun i => by
    simp only [Finset.mem_filter, Finset.mem_univ, true_and]
    exact (hB.before_sortedFrom_iff i j).symm)]
  rw [show (Finset.univ.filter fun i : Fin n => i < j) = Finset.Iio j from by ext i; simp]
  exact Fin.card_Iio j

end StrictTotalBefore

end Idealize.ShloMosaic
-- ==== Proof.Perm.lean ====
/-
  The counted slot and the stable argsort are inverse to each other.

  The reference sorts the positions of a row by the flag alone, stably. By stability that is the sort by the flag and
  then the position (`total`), a strict total order on the positions. Under a strict total order a position lands at
  its rank, the number of positions before it. For position `k` that rank is counted directly: if `k` is kept, the kept
  positions below `k`; if `k` is deleted, every kept position and the deleted positions below `k`. That count is the
  kernel's slot `dest`. So `dest (src j) = j`, and `dest k = j` exactly when `k = src j`.
-/
import proofs.«417069_j22445499089174_3_alg».proof.Proof.Spec
import proofs.«417069_j22445499089174_3_alg».proof.Proof.LibSortRank

namespace Cert.Deletion

open Idealize.ShloMosaic

/-- On flags: a kept one sorts strictly before a deleted one. -/
def flagLt (a b : Bool) : Bool := !a && b

/-- The flag and then the position. -/
def total (mask : SMask.Idx → BitVec 1) (b : Fin 4096) (k k' : Fin 128) : Bool :=
  flagLt (del mask b k) (del mask b k') || (decide (del mask b k = del mask b k') && decide (k < k'))

theorem total_strict (mask : SMask.Idx → BitVec 1) (b : Fin 4096) : StrictTotalBefore (total mask b) :=
  StrictTotalBefore.of_key_then_position flagLt (del mask b) (by decide) (by decide) (by decide)

/-- Stability: the sort by the flag alone is the sort by the flag and then the position. -/
theorem src_eq_total (mask : SMask.Idx → BitVec 1) (b : Fin 4096) : src mask b = sortedFrom (total mask b) :=
  sortedFrom_key_eq_key_then_position flagLt (del mask b)

/-- The counted slot of `k` is the number of positions before `k` in the total order. -/
theorem dest_eq_card (mask : SMask.Idx → BitVec 1) (b : Fin 4096) (k : Fin 128) :
    dest mask b k = (Finset.univ.filter fun q : Fin 128 => total mask b q k = true).card := by
  unfold dest
  by_cases hk : del mask b k = true
  · rw [if_pos hk]
    have e : (Finset.univ.filter fun q : Fin 128 => total mask b q k = true)
        = (Finset.univ.filter fun q : Fin 128 => del mask b q = false)
          ∪ (Finset.univ.filter fun q : Fin 128 => q < k ∧ del mask b q = true) := by
      ext q
      simp only [Finset.mem_filter, Finset.mem_univ, true_and, Finset.mem_union, total, flagLt, hk]
      cases del mask b q <;> simp
    rw [e, Finset.card_union_of_disjoint]
    · rfl
    · refine Finset.disjoint_filter.mpr fun q _ h1 h2 => ?_
      rw [h1] at h2
      exact absurd h2.2 (by decide)
  · have hk' : del mask b k = false := by simpa using hk
    rw [if_neg hk]
    congr 1
    ext q
    simp only [Finset.mem_filter, Finset.mem_univ, true_and, total, flagLt, hk']
    cases del mask b q <;> simp

/-- The position the sort puts at `j` has slot `j`. -/
theorem dest_src (mask : SMask.Idx → BitVec 1) (b : Fin 4096) (j : Fin 128) : dest mask b (src mask b j) = j.val := by
  rw [dest_eq_card, src_eq_total]
  exact (total_strict mask b).card_before_sortedFrom j

theorem src_surjective (mask : SMask.Idx → BitVec 1) (b : Fin 4096) : Function.Surjective (src mask b) := by
  rw [src_eq_total]
  exact sortedFrom_surjective _

/-- Position `k` has slot `j` exactly when the sort puts `k` at `j`. -/
theorem dest_eq_iff (mask : SMask.Idx → BitVec 1) (b : Fin 4096) (k j : Fin 128) :
    dest mask b k = j.val ↔ k = src mask b j := by
  constructor
  · intro h
    obtain ⟨j', rfl⟩ := src_surjective mask b k
    rw [dest_src] at h
    rw [Fin.ext h]
  · intro h
    rw [h]
    exact dest_src mask b j

theorem dest_lt (mask : SMask.Idx → BitVec 1) (b : Fin 4096) (k : Fin 128) : dest mask b k < 128 := by
  obtain ⟨j', rfl⟩ := src_surjective mask b k
  rw [dest_src]
  exact j'.isLt

theorem nkept_le (mask : SMask.Idx → BitVec 1) (b : Fin 4096) : nkept mask b ≤ 128 := by
  unfold nkept
  exact (Finset.card_le_univ _).trans (by simp)

end Cert.Deletion
-- ==== Proof.LibRunSum.lean ====
/-
  A running sum along rows, as a window reduction. A `reduce_window` with the sum as its body, a window as long as a
  row, unit strides and low padding one less than the row's length reads, at position `l` of a row, the window whose
  last position is `l`: the padding holds the sum's identity, so what is left is the sum of the row's entries at
  positions `0 … l`. Three steps, each a lemma of its own: a left fold of additions is a sum; the window's positions
  that fall inside the row are the last `l + 1` of them; and the reduction itself at the shape `[4096, 128]` of words.
-/
import Idealize.ShloMosaic.PureOps
import Idealize.ShloMosaic.Lib.ValueIdx
import Mathlib.Data.BitVec
import Mathlib.Algebra.BigOperators.Fin
import Mathlib.Algebra.BigOperators.Group.Finset.Basic

open scoped BigOperators

namespace Idealize.ShloMosaic

/-- A left fold that adds `g n` for each `n` of a list, from `v`, is `v` plus the sum of `g` over the list. -/
theorem foldl_add_eq_add_sum {ι M : Type*} [AddCommMonoid M] (g : ι → M) (v : M) (l : List ι) :
    l.foldl (fun r n => r + g n) v = v + (l.map g).sum := by
  induction l generalizing v with
  | nil => simp
  | cons a l ih => rw [List.foldl_cons, ih, List.map_cons, List.sum_cons, add_assoc]

/-- Over all of `Fin N` in order, that is `v` plus the sum of `g` over `Fin N`. -/
theorem foldl_add_finRange {M : Type*} [AddCommMonoid M] {N : Nat} (g : Fin N → M) (v : M) :
    (List.finRange N).foldl (fun r n => r + g n) v = v + ∑ n, g n := by
  rw [foldl_add_eq_add_sum, Fin.sum_univ_def]

/-- A window of `N` positions slid so that its last position sits on `l`: position `n` of the window is on the row
    iff `N - 1 ≤ l + n`, and is then the row's position `l + n - (N - 1)`. Summing `f` over the window's positions that
    are on the row is summing it over the row's positions up to `l`. -/
theorem sum_filter_le_eq_sum_window {M : Type*} [AddCommMonoid M] {N : Nat} (l : Fin N) (f : Fin N → M) :
    ∑ q ∈ Finset.univ.filter (fun q : Fin N => q ≤ l), f q
      = ∑ n : Fin N, if N - 1 ≤ l.val + n.val then
          f ⟨l.val + n.val - (N - 1), by have := l.isLt; have := n.isLt; omega⟩ else 0 := by
  rw [← Finset.sum_filter]
  refine Finset.sum_nbij' (fun q => ⟨min (q.val + (N - 1) - l.val) (N - 1), by have := q.isLt; omega⟩)
    (fun n => ⟨l.val + n.val - (N - 1), by have := l.isLt; have := n.isLt; omega⟩) ?_ ?_ ?_ ?_ ?_
  · intro q hq
    have hq' : q.val ≤ l.val := (Finset.mem_filter.mp hq).2
    have := l.isLt
    refine Finset.mem_filter.mpr ⟨Finset.mem_univ _, ?_⟩
    show N - 1 ≤ l.val + min (q.val + (N - 1) - l.val) (N - 1)
    omega
  · intro n hn
    have hn' : N - 1 ≤ l.val + n.val := (Finset.mem_filter.mp hn).2
    have := n.isLt
    refine Finset.mem_filter.mpr ⟨Finset.mem_univ _, ?_⟩
    show l.val + n.val - (N - 1) ≤ l.val
    omega
  · intro q hq
    have hq' : q.val ≤ l.val := (Finset.mem_filter.mp hq).2
    have := l.isLt
    apply Fin.ext
    show l.val + min (q.val + (N - 1) - l.val) (N - 1) - (N - 1) = q.val
    omega
  · intro n hn
    have hn' : N - 1 ≤ l.val + n.val := (Finset.mem_filter.mp hn).2
    have := n.isLt
    apply Fin.ext
    show min (l.val + n.val - (N - 1) + (N - 1) - l.val) (N - 1) = n.val
    omega
  · intro q hq
    have hq' : q.val ≤ l.val := (Finset.mem_filter.mp hq).2
    have := l.isLt
    congr 1
    apply Fin.ext
    show q.val = l.val + min (q.val + (N - 1) - l.val) (N - 1) - (N - 1)
    omega

/-- The host's running sum along the rows of a `[4096, 128]` array of words, as one `reduce_window`: window `[1, 128]`,
    unit strides, low padding `[0, 127]`, no high padding, the sum from the zero word. At row `b`, position `l`, it is
    the sum of the row's words at positions `0 … l`. -/
theorem Host.reduceWindow_rowRunSum (x : (⟨2, ![4096, 128]⟩ : Shape).Idx → BitVec 32)
    (init : (⟨0, ![]⟩ : Shape).Idx → BitVec 32) (h0 : init ValueIdx.ix0 = 0#32)
    (hw : (⟨2, ![4096, 128]⟩ : Shape).ReduceWindows (![1, 128] : Fin 2 → Nat) ![1, 1] ![0, 127] ![0, 0] ⟨2, ![4096, 128]⟩)
    (hu : 0 < (⟨0, ![]⟩ : Shape).numel) (b : Fin 4096) (l : Fin 128) :
    Host.reduceWindow IntOp.addi (![1, 128] : Fin 2 → Nat) ![1, 1] ![0, 127] ![0, 0] x init hw hu (ValueIdx.ix2 b l)
      = ∑ q ∈ Finset.univ.filter (fun q : Fin 128 => q ≤ l), x (ValueIdx.ix2 b q) := by
  have hv : init (Shape.Idx.first hu) = 0 := by
    rw [ValueIdx.eq_ix0 (Shape.Idx.first hu)]; exact h0
  rw [sum_filter_le_eq_sum_window l (fun q => x (ValueIdx.ix2 b q))]
  unfold Host.reduceWindow
  dsimp only
  simp only [IntOp.addi, hv]
  rw [foldl_add_finRange, zero_add, ← Equiv.sum_comp (⟨2, ![1, 128]⟩ : Shape).rowMajor]
  simp only [Equiv.symm_apply_apply]
  rw [ValueIdx.sum_idx2, Fin.sum_univ_one]
  refine Finset.sum_congr rfl fun n _ => ?_
  have hb := b.isLt
  have hl := l.isLt
  have hn := n.isLt
  by_cases hc : 128 - 1 ≤ l.val + n.val
  · rw [if_pos hc]
    split
    next hin =>
      refine congrArg x (funext fun a => Fin.ext ?_)
      match a with
      | ⟨0, _⟩ => show b.val * 1 + 0 - 0 = b.val; omega
      | ⟨1, _⟩ => show l.val * 1 + n.val - 127 = l.val + n.val - (128 - 1); omega
    next hin =>
      exfalso; apply hin; intro a
      match a with
      | ⟨0, _⟩ => show 0 ≤ b.val * 1 + 0 ∧ b.val * 1 + 0 - 0 < 4096; omega
      | ⟨1, _⟩ => show 127 ≤ l.val * 1 + n.val ∧ l.val * 1 + n.val - 127 < 128; omega
  · rw [if_neg hc]
    split
    next hin => exact absurd (show 127 ≤ l.val * 1 + n.val from (hin 1).1) (by omega)
    next hin => rfl

end Idealize.ShloMosaic
-- ==== Proof.Bridge.lean ====
/-
  The kernel's arithmetic is the specification.

  Message half. With the slot words the counted slots and the kept count as a word, position `j` is past the kept
  symbols exactly when `nkept ≤ j` (small non-negative words compare as naturals). Before that, the one-hot row
  "slot of `k` is `j`" is 1 at the one position `k = src j` and 0 elsewhere, so the first sum is the symbol at `src j`
  (0 · x = 0 and 1 · x = x hold on all extended reals); the second sum multiplies the same row with `x - x`, which
  is 0 for a REAL `x` — the one place the precondition is used: on an infinite entry `x - x` is not 0.

  Probability half. Entry 0: the sum over all 64 entries with entry 0's term masked to zero is the sum over the other
  63, entry `k + 1` for `k < 63`.
-/
import proofs.«417069_j22445499089174_3_alg».proof.Proof.Spec
import proofs.«417069_j22445499089174_3_alg».proof.Proof.Perm
import Mathlib.Algebra.BigOperators.Fin

noncomputable section

open scoped BigOperators

namespace Cert.Deletion

open Idealize.ShloMosaic Idealize.ShloMosaic.ValueIdx

/-- Small naturals are distinct as 32-bit words. -/
theorem ofNat32_inj {a b : Nat} (ha : a < 128) (hb : b < 128) : BitVec.ofNat 32 a = BitVec.ofNat 32 b ↔ a = b := by
  constructor
  · intro h
    have := congrArg BitVec.toNat h
    simp only [BitVec.toNat_ofNat] at this
    omega
  · rintro rfl; rfl

/-- A small natural read back signed from its 32-bit word. -/
theorem toInt_ofNat32 {a : Nat} (ha : a ≤ 128) : (BitVec.ofNat 32 a).toInt = (a : ℤ) := by
  rw [BitVec.toInt_eq_toNat_of_lt (by simp only [BitVec.toNat_ofNat]; omega)]
  simp only [BitVec.toNat_ofNat]
  omega

theorem kMsg_eq (mask : SMask.Idx → BitVec 1) (msg : SMsg.Idx → EReal) (hfin : ∀ i, msg i ≠ ⊤ ∧ msg i ≠ ⊥)
    (b : Fin 4096) (j : Fin 128) (v : Fin 64) :
    kMsg (fun k => BitVec.ofNat 32 (dest mask b k)) (BitVec.ofNat 32 (nkept mask b)) (fun k v => msg (ix3 b k v)) j v
      = msgOut msg mask b j v := by
  unfold kMsg msgOut
  rw [toInt_ofNat32 (nkept_le mask b)]
  by_cases hj : nkept mask b ≤ j.val
  · rw [if_pos (by exact_mod_cast hj), if_pos hj]
  · rw [if_neg (by exact_mod_cast hj), if_neg hj]
    have hoh : ∀ k : Fin 128, (BitVec.ofNat 32 (dest mask b k) = BitVec.ofNat 32 j.val) ↔ k = src mask b j := fun k =>
      (ofNat32_inj (dest_lt mask b k) j.isLt).trans (dest_eq_iff mask b k j)
    have h2 : (∑ k : Fin 128, (if BitVec.ofNat 32 (dest mask b k) = BitVec.ofNat 32 j.val then (1 : EReal) else 0)
        * (msg (ix3 b k v) - msg (ix3 b k v))) = 0 := by
      refine Finset.sum_eq_zero fun k _ => ?_
      rw [EReal.sub_self (hfin _).1 (hfin _).2, mul_zero]
    have h1 : (∑ k : Fin 128, (if BitVec.ofNat 32 (dest mask b k) = BitVec.ofNat 32 j.val then (1 : EReal) else 0)
        * msg (ix3 b k v)) = msg (ix3 b (src mask b j) v) := by
      rw [Finset.sum_eq_single (src mask b j)]
      · rw [if_pos ((hoh _).mpr rfl), one_mul]
      · intro k _ hk
        rw [if_neg (fun h => hk ((hoh k).mp h)), zero_mul]
      · intro h; exact absurd (Finset.mem_univ _) h
    rw [h1, h2, add_zero]

theorem kProb_eq (probs : SMsg.Idx → EReal) (b : Fin 4096) (j : Fin 128) (v : Fin 64) :
    kProb (fun v => probs (ix3 b j v)) v = probOut probs b j v := by
  unfold kProb probOut
  by_cases hv : v.val = 0
  · rw [if_pos hv, if_pos hv, Fin.sum_univ_succ]
    have h0 : ((0 : Fin 64).val = 0) := rfl
    rw [if_pos h0, zero_add]
    refine congrArg (fun s => (1 : EReal) - s) (Finset.sum_congr rfl fun k _ => ?_)
    rw [if_neg (by simp)]
  · rw [if_neg hv, if_neg hv]

/-- The kernel's result from the counted slots and kept counts is the specification's, on real messages. -/
theorem kOut_eq_out (msg probs : SMsg.Idx → EReal) (mask : SMask.Idx → BitVec 1) (hfin : ∀ i, msg i ≠ ⊤ ∧ msg i ≠ ⊥)
    (d : SMask.Idx → BitVec 32) (nk : SCnt.Idx → BitVec 32)
    (hd : ∀ (b : Fin 4096) (k : Fin 128), d (ix2 b k) = BitVec.ofNat 32 (dest mask b k))
    (hnk : ∀ b : Fin 4096, nk (ix3 b (0 : Fin 1) (0 : Fin 1)) = BitVec.ofNat 32 (nkept mask b)) :
    kOut msg probs d nk = out msg probs mask := by
  funext i
  obtain ⟨s, b, j, v, rfl⟩ : ∃ (s : Fin 2) (b : Fin 4096) (j : Fin 128) (v : Fin 64), i = ix4 s b j v :=
    ⟨i 0, i 1, i 2, i 3, eq_ix4 i⟩
  match s with
  | ⟨0, _⟩ =>
    show kOut msg probs d nk (ix4 (0 : Fin 2) b j v) = out msg probs mask (ix4 (0 : Fin 2) b j v)
    rw [kOut_msg, out_msg, hnk b, show (fun k => d (ix2 b k)) = fun k => BitVec.ofNat 32 (dest mask b k) from funext (hd b)]
    exact kMsg_eq mask msg hfin b j v
  | ⟨1, _⟩ =>
    show kOut msg probs d nk (ix4 (1 : Fin 2) b j v) = out msg probs mask (ix4 (1 : Fin 2) b j v)
    rw [kOut_prob, out_prob]
    exact kProb_eq probs b j v

end Cert.Deletion

end
-- ==== Proof.Finite.lean ====
/-
  The precondition read: every entry of the two float arguments is a real number.

  The predicate is a conjunction of two "all" reductions, one per float argument, of the elementwise test
  |x| < +infinity. From the predicate being 1 the first reduction is 1, so the test is 1 at every index of the message
  array; and an extended real whose absolute value max x (-x) lies strictly below the top element is neither the top nor
  the bottom element.
-/
import proofs.«417069_j22445499089174_3_alg».proof.Defs
import proofs.«417069_j22445499089174_3_alg».proof.Proof.Gen.Pre_finite_inputs
import Idealize.ShloMosaic.Lib.ReduceAll
import Idealize.ShloMosaic.Lib.ValueIdx

noncomputable section

open scoped BigOperators

namespace Cert.FiniteInputs

open Idealize.ShloMosaic Idealize.ShloMosaic.TcCoe Idealize.SL.Sem Idealize.ShloMosaic.ValueIdx

/-- The shape of rank 0 has exactly one index. -/
instance : Subsingleton Cert.Pre_finite_inputs.S_.Idx := ⟨fun a b => funext fun d => d.elim0⟩

/-- The single-precision word of +infinity denotes the top extended real. -/
theorem inf_word : Ideal.ofBits .f32 0x7F800000#32 = (⊤ : EReal) := by simp [Ideal.ofBits, Ideal.ieee]

/-- An extended real whose absolute value compares strictly below +infinity is a real: at the top element and at the
    bottom element max x (-x) is the top element, which is not below itself. -/
theorem real_of_abs_lt_inf (x : EReal)
    (hx : Ideal.cmp .olt (max x (-x)) (Ideal.ofBits .f32 0x7F800000#32) = 1#1) : x ≠ ⊤ ∧ x ≠ ⊥ := by
  rw [inf_word] at hx
  induction x using EReal.rec with
  | bot => simp [Ideal.cmp] at hx
  | top => simp [Ideal.cmp] at hx
  | coe r => exact ⟨EReal.coe_ne_top r, EReal.coe_ne_bot r⟩

/-- Under the precondition every message entry is neither infinity. -/
theorem msg_real [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S4096x128x64.Idx) :
    (m ((c.tc : Thread Cert.KernelIdeal.nD Cert.KernelIdeal.τ).loc Cert.KernelIdeal.main_arg0) : Cert.KernelIdeal.S4096x128x64.Idx → EReal) i ≠ (⊤ : EReal)
    ∧ (m ((c.tc : Thread Cert.KernelIdeal.nD Cert.KernelIdeal.τ).loc Cert.KernelIdeal.main_arg0) : Cert.KernelIdeal.S4096x128x64.Idx → EReal) i ≠ (⊥ : EReal) := by
  -- the predicate at its one index, as the conjunction of the two reductions
  have h0 := congrFun (h c) ValueIdx.ix0
  dsimp only [Cert.Pre_finite_inputs.fn] at h0
  -- the first conjunct is the reduction over the message array
  obtain ⟨h1, -⟩ := IntOp.andi_eq_one.1 h0
  -- a reduction by "and" that is 1 met a 1 at every index: the test holds at i
  have h2 := Host.reduce_andi_all _ _ _ _ _ h1 i
  exact real_of_abs_lt_inf _ h2

end Cert.FiniteInputs

end
-- ==== Proof.KernelHost.lean ====
/-
  The two integer arrays the kernel's region finds, read at an index: the slot words (computed on the host by two
  running sums of the flags and a select) and the kept counts (a row sum of the negated flags).

  Everything is done in the ring of 32-bit words: word addition and subtraction are the ring's, a fold of additions from
  zero is a sum, and a sum of 0/1 words is a count read as a word, so no bound on a value is needed anywhere. The one
  operation read by hand is the running sum, a window of 128 positions padded 127 low: at position `l` its window
  positions `t` read the row at `l + t - 127`, which runs through the positions up to `l`.
-/
import proofs.«417069_j22445499089174_3_alg».proof.Proof.Gen.KernelIdeal.Frame
import proofs.«417069_j22445499089174_3_alg».proof.Proof.Spec
import Idealize.ShloMosaic.Lib.StableHlo.Run
import Idealize.ShloMosaic.Lib.StableHlo.Predicate
import Idealize.ShloMosaic.Lib.Pipeline.Value
import Mathlib.Data.BitVec
import Mathlib.Algebra.BigOperators.Fin
import Mathlib.Algebra.BigOperators.Ring.Finset

noncomputable section

open scoped BigOperators

namespace Cert.KernelIdeal.HostValue

open Cert.KernelIdeal Cert.KernelIdeal.Gen Idealize.ShloMosaic Idealize.ShloMosaic.TcCoe Idealize.SL.Sem Idealize.ShloMosaic.ValueIdx

/-! ## Sums of words

Word addition is addition in the ring of 32-bit words, so a fold of it from zero is a sum there, and a sum of 0/1
words is a count read as a word: nothing here needs a bound. -/

/-- A left fold of word addition over a list is the start plus the sum. -/
theorem foldl_addi_eq {ι : Type} (l : List ι) (G : ι → BitVec 32) (a : BitVec 32) :
    l.foldl (fun r n => IntOp.addi r (G n)) a = a + (l.map G).sum := by
  induction l generalizing a with
  | nil => simp
  | cons y ys ih =>
    rw [List.foldl_cons, ih, List.map_cons, List.sum_cons]
    show (a + G y) + _ = _
    rw [add_assoc]

/-- A left fold of word addition from zero over all of `Fin N` is the sum. -/
theorem foldl_addi_eq_sum (N : Nat) (G : Fin N → BitVec 32) :
    (List.finRange N).foldl (fun r n => IntOp.addi r (G n)) 0#32 = ∑ n, G n := by
  rw [foldl_addi_eq, Fin.sum_univ_def]
  show (0 : BitVec 32) + _ = _
  rw [zero_add]

/-- A set fold of word addition from zero is the sum. -/
theorem fold_addi_eq_sum {ι : Type} [DecidableEq ι] (S : Finset ι) (x : ι → BitVec 32) :
    Finset.fold IntOp.addi 0#32 x S = ∑ i ∈ S, x i := by
  induction S using Finset.induction_on with
  | empty => rfl
  | insert a S ha ih =>
    rw [Finset.fold_insert ha, Finset.sum_insert ha, ih]
    rfl

/-- What window position `i` contributes to the running sum at position `l` of row `b`: the row's entry at
    `l + i - 127` when that is a position, and zero (the padding) otherwise. -/
def wterm (x : S4096x128.Idx → BitVec 32) (b : Fin 4096) (l : Fin 128) (t : Nat) : BitVec 32 :=
  if 127 ≤ l.val + t then x (ix2 b ⟨(l.val + t - 127) % 128, Nat.mod_lt _ (by decide)⟩) else 0

/-- The window's terms summed over the window: the row's entries at the positions up to `l`. -/
theorem sum_window_le (x : S4096x128.Idx → BitVec 32) (b : Fin 4096) (l : Fin 128) :
    (∑ t : Fin 128, wterm x b l t.val) = ∑ q : Fin 128, if q ≤ l then x (ix2 b q) else 0 := by
  have hl := l.isLt
  rw [← Equiv.sum_comp (Equiv.addRight (l + 1)) (fun q => if q ≤ l then x (ix2 b q) else 0)]
  refine Finset.sum_congr rfl fun t _ => ?_
  have ht' := t.isLt
  have hv : ((Equiv.addRight (l + 1)) t).val = (t.val + l.val + 1) % 128 := by
    show (t + (l + 1)).val = _
    rw [Fin.val_add, Fin.val_add]
    show (t.val + (l.val + 1) % 128) % 128 = _
    omega
  unfold wterm
  by_cases ht : 127 ≤ l.val + t.val
  · rw [if_pos ht, if_pos (Fin.le_def.2 (by rw [hv]; omega))]
    exact congrArg (fun q => x (ix2 b q)) (Fin.ext (by rw [hv]; show (l.val + t.val - 127) % 128 = _; omega))
  · rw [if_neg ht, if_neg (by rw [Fin.le_def, hv]; omega)]

/-- THE RUNNING SUM along a row as the host writes it — one window of 128 positions, padded 127 low, summed from zero —
    is at position `l` of row `b` the sum of the row's entries at the positions up to `l`. -/
theorem runSum_apply (x : S4096x128.Idx → BitVec 32) {u : Shape} (init : u.Idx → BitVec 32) (hu : 0 < u.numel)
    (h : S4096x128.ReduceWindows (![1, 128] : Fin 2 → Nat) ![1, 1] ![0, 127] ![0, 0] S4096x128)
    (h0 : init (Shape.Idx.first hu) = 0#32) (b : Fin 4096) (l : Fin 128) :
    Host.reduceWindow IntOp.addi ![1, 128] ![1, 1] ![0, 127] ![0, 0] x init h hu (ix2 b l)
      = ∑ q : Fin 128, if q ≤ l then x (ix2 b q) else 0 := by
  unfold Host.reduceWindow
  dsimp only
  rw [h0, foldl_addi_eq_sum]
  refine (Finset.sum_congr rfl (g := fun n => wterm x b l ((Shape.rowMajor ⟨2, ![1, 128]⟩).symm n 1).val) fun n _ => ?_).trans ?_
  · -- one window position: the bounds test on both axes is the test on the second
    let i : (⟨2, ![1, 128]⟩ : Shape).Idx := (Shape.rowMajor ⟨2, ![1, 128]⟩).symm n
    show _ = wterm x b l (i 1).val
    have hi0 : (i 0).val = 0 := by have h := (i 0).isLt; change (i 0).val < 1 at h; omega
    have hi1 : (i 1).val < 128 := (i 1).isLt
    have hl := l.isLt
    have hb := b.isLt
    unfold wterm
    split
    · rename_i hin
      have h1 := (hin 1).1
      change 127 ≤ l.val * 1 + (i 1).val at h1
      rw [if_pos (by omega)]
      refine congrArg x (funext fun a => Fin.ext ?_)
      match a with
      | ⟨0, _⟩ => show b.val * 1 + (i 0).val - 0 = b.val; omega
      | ⟨1, _⟩ => show l.val * 1 + (i 1).val - 127 = (l.val + (i 1).val - 127) % 128; omega
    · rename_i hin
      have ht : ¬ 127 ≤ l.val + (i 1).val := by
        intro ht
        refine hin fun a => ?_
        match a with
        | ⟨0, _⟩ => exact ⟨Nat.zero_le _, by show b.val * 1 + (i 0).val - 0 < 4096; omega⟩
        | ⟨1, _⟩ => exact ⟨by show 127 ≤ l.val * 1 + (i 1).val; omega, by show l.val * 1 + (i 1).val - 127 < 128; omega⟩
      rw [if_neg ht]
      rfl
  · -- the window's positions are the pairs (0, t), t below 128
    refine (Equiv.sum_comp (Shape.rowMajor ⟨2, ![1, 128]⟩).symm (fun i : (⟨2, ![1, 128]⟩ : Shape).Idx => wterm x b l (i 1).val)).trans ?_
    rw [sum_idx2, Fin.sum_univ_one]
    exact sum_window_le x b l

/-- The running sum less the entry itself: the sum over the positions strictly before `l`. -/
theorem sum_le_sub (f : Fin 128 → BitVec 32) (l : Fin 128) :
    (∑ q : Fin 128, if q ≤ l then f q else 0) - f l = ∑ q : Fin 128, if q < l then f q else 0 := by
  have hsplit : ∀ q : Fin 128, (if q ≤ l then f q else 0) = (if q < l then f q else 0) + (if q = l then f q else 0) := by
    intro q
    rcases lt_trichotomy q l with h | h | h
    · rw [if_pos h.le, if_pos h, if_neg h.ne, add_zero]
    · subst h
      rw [if_pos le_rfl, if_neg (lt_irrefl _), if_pos rfl, zero_add]
    · rw [if_neg (not_le.2 h), if_neg (not_lt.2 h.le), if_neg h.ne', add_zero]
  rw [Finset.sum_congr rfl (fun q _ => hsplit q), Finset.sum_add_distrib, Finset.sum_ite_eq', if_pos (Finset.mem_univ _),
    add_sub_cancel_right]

/-- A sum of 0/1 words over the positions before `l` is the count of the ones there, as a word. -/
theorem sum_lt_ind (p : Fin 128 → Prop) [DecidablePred p] (l : Fin 128) :
    (∑ q : Fin 128, if q < l then (if p q then (1 : BitVec 32) else 0) else 0)
      = BitVec.ofNat 32 (Finset.univ.filter fun q : Fin 128 => q < l ∧ p q).card := by
  have hone : ∀ q : Fin 128, (if q < l then (if p q then (1 : BitVec 32) else 0) else 0) = if q < l ∧ p q then 1 else 0 := by
    intro q
    by_cases h1 : q < l
    · by_cases h2 : p q
      · rw [if_pos h1, if_pos h2, if_pos ⟨h1, h2⟩]
      · rw [if_pos h1, if_neg h2, if_neg (fun h => h2 h.2)]
    · rw [if_neg h1, if_neg (fun h => h1 h.1)]
  rw [Finset.sum_congr rfl (fun q _ => hone q), Finset.sum_boole]
  rfl

/-- A sum of 0/1 words over a whole row is the count of the ones, as a word. -/
theorem sum_ind (p : Fin 128 → Prop) [DecidablePred p] :
    (∑ q : Fin 128, if p q then (1 : BitVec 32) else 0) = BitVec.ofNat 32 (Finset.univ.filter fun q : Fin 128 => p q).card := by
  rw [Finset.sum_boole]
  rfl

/-- THE ROW SUM: the host's reduce by addition along the second axis, from zero, is at row `j` the sum of the row. -/
theorem rowSum_apply (x : S4096x128.Idx → BitVec 32) {u : Shape} (init : u.Idx → BitVec 32) (hu : 0 < u.numel)
    (h : S4096x128.ReducesTo [1] S4096) (h0 : init (Shape.Idx.first hu) = 0#32) (j : S4096.Idx) :
    Host.reduce IntOp.addi x init h hu j = ∑ q : Fin 128, x (ix2 (j 0) q) := by
  classical
  rw [Host.reduce_eq_fold, h0]
  -- an index drops to `j` exactly when it lies in row `j 0`
  have hrow : ∀ i : S4096x128.Idx, h.drop i = j ↔ i 0 = j 0 := by
    intro i
    have hv : ((h.drop i) 0).val = (i 0).val := Shape.ReducesTo.drop_apply_val h i 0
    refine ⟨fun e => Fin.ext (by rw [← hv, e]), fun e => funext fun a => ?_⟩
    have ha : a = 0 := Subsingleton.elim _ _
    subst ha
    exact Fin.ext (by rw [hv, e])
  rw [fold_addi_eq_sum]
  refine Finset.sum_nbij' (fun i => i 1) (fun q => ix2 (j 0) q) (fun _ _ => Finset.mem_univ _)
    (fun q _ => Finset.mem_filter.2 ⟨Finset.mem_univ _, (hrow _).2 rfl⟩) ?_ (fun _ _ => rfl) ?_
  · intro i hi
    have hi0 := (hrow i).1 (Finset.mem_filter.1 hi).2
    show ix2 (j 0) (i 1) = i
    rw [← hi0]
    exact (eq_ix2 i).symm
  · intro i hi
    have hi0 := (hrow i).1 (Finset.mem_filter.1 hi).2
    show x i = x (ix2 (j 0) (i 1))
    rw [← hi0]
    exact congrArg x (eq_ix2 i)

/-! ## The host's arithmetic, as functions of the flags -/

section Pure

variable (mask : S4096x128.Idx → BitVec 1)

/-- The flags as words: 1 at a deleted position. -/
def flagW : S4096x128.Idx → BitVec 32 := extui 32 mask (by decide)

/-- One less the flags: 1 at a kept position. -/
def keepW : S4096x128.Idx → BitVec 32 :=
  subi (broadcastInDim S4096x128 ![] (by decide) (constantI S_ 32 1#32)) (flagW mask)

/-- The running sum along each row. -/
def runSum (x : S4096x128.Idx → BitVec 32) : S4096x128.Idx → BitVec 32 :=
  Host.reduceWindow IntOp.addi ![1, 128] ![1, 1] ![0, 127] ![0, 0] x
    (broadcastInDim S_ ![] (by decide) (constantI S_ 32 0#32)) (by decide) (by decide)

/-- The kept count of each row, as a column. -/
def cntCol : S4096x1.Idx → BitVec 32 :=
  broadcastInDim S4096x1 ![0] (by decide)
    (Host.reduce IntOp.addi (keepW mask) (constantI S_ 32 0#32) (by decide : S4096x128.ReducesTo [1] S4096) (by decide))

/-- The slot words: where the flag is 0 the kept positions before, else the kept count plus the deleted positions before. -/
def slotW : S4096x128.Idx → BitVec 32 :=
  select (cmpi .eq (flagW mask) (broadcastInDim S4096x128 ![] (by decide) (constantI S_ 32 0#32)))
    (subi (runSum (keepW mask)) (keepW mask))
    (addi (broadcastInDim S4096x128 ![0, 1] (by decide) (cntCol mask)) (subi (runSum (flagW mask)) (flagW mask)))

/-- The kept counts in the region's shape. -/
def cntW : S4096x1x1.Idx → BitVec 32 := shapeCast S4096x1x1 (cntCol mask) (by decide)

theorem flagW_apply (b : Fin 4096) (q : Fin 128) :
    flagW mask (ix2 b q) = if Cert.Deletion.del mask b q = true then 1 else 0 := by
  show (mask (ix2 b q)).setWidth 32 = if (mask (ix2 b q) == 1#1) = true then 1 else 0
  rcases BitVec.eq_zero_or_eq_one (mask (ix2 b q)) with e | e <;> rw [e] <;> rfl

theorem keepW_apply (b : Fin 4096) (q : Fin 128) :
    keepW mask (ix2 b q) = if Cert.Deletion.del mask b q = false then 1 else 0 := by
  show (1#32 : BitVec 32) - flagW mask (ix2 b q) = _
  rw [flagW_apply]
  cases Cert.Deletion.del mask b q <;> rfl

/-- The running sum less the entry: the sum over the positions strictly before. -/
theorem exclSum_apply (x : S4096x128.Idx → BitVec 32) (b : Fin 4096) (k : Fin 128) :
    subi (runSum x) x (ix2 b k) = ∑ q : Fin 128, if q < k then x (ix2 b q) else 0 := by
  show runSum x (ix2 b k) - x (ix2 b k) = _
  unfold runSum
  rw [runSum_apply x _ _ _ rfl b k]
  exact sum_le_sub (fun q => x (ix2 b q)) k

/-- The kept count of row `b`, as the column holds it. -/
theorem cntCol_apply (b : Fin 4096) (i : S4096x1.Idx) (hi : i 0 = b) :
    cntCol mask i = BitVec.ofNat 32 (Cert.Deletion.nkept mask b) := by
  unfold cntCol
  rw [broadcastInDim_apply (![0] : Fin 1 → Fin 2) _ _ i (ix1 b) (fun a => by
    have ha : a = 0 := Subsingleton.elim _ _
    subst ha
    show b.val = if (4096 : Nat) = 1 then 0 else (i 0).val
    rw [if_neg (by decide), hi])]
  rw [rowSum_apply (keepW mask) _ _ _ rfl (ix1 b)]
  show (∑ q : Fin 128, keepW mask (ix2 b q)) = _
  rw [Finset.sum_congr rfl (fun q _ => keepW_apply mask b q)]
  exact sum_ind (fun q => Cert.Deletion.del mask b q = false)

/-- THE SLOT WORD at position `k` of row `b` is the counted slot. -/
theorem slotW_apply (b : Fin 4096) (k : Fin 128) :
    slotW mask (ix2 b k) = BitVec.ofNat 32 (Cert.Deletion.dest mask b k) := by
  unfold slotW
  rw [select_apply]
  have hcmp : cmpi .eq (flagW mask) (broadcastInDim S4096x128 ![] (by decide) (constantI S_ 32 0#32)) (ix2 b k)
      = IntOp.cmpi .eq (flagW mask (ix2 b k)) 0#32 := rfl
  rw [hcmp, flagW_apply]
  unfold Cert.Deletion.dest
  cases hd : Cert.Deletion.del mask b k
  · -- kept: the flag word is 0, the comparison holds, and the slot is the kept positions before
    rw [if_neg (by decide), if_neg (by decide)]
    rw [show IntOp.cmpi .eq (0 : BitVec 32) 0#32 = 1#1 from rfl, select_one, exclSum_apply]
    rw [Finset.sum_congr rfl (fun q _ => by rw [keepW_apply])]
    exact sum_lt_ind (fun q => Cert.Deletion.del mask b q = false) k
  · -- deleted: the flag word is 1, the comparison fails, and the slot is the kept count plus the deleted positions before
    rw [if_pos rfl, if_pos rfl]
    rw [show IntOp.cmpi .eq (1 : BitVec 32) 0#32 = 0#1 from rfl, select_zero]
    show broadcastInDim S4096x128 ![0, 1] _ (cntCol mask) (ix2 b k) + subi (runSum (flagW mask)) (flagW mask) (ix2 b k) = _
    rw [exclSum_apply, Finset.sum_congr rfl (fun q _ => by rw [flagW_apply])]
    rw [sum_lt_ind (fun q => Cert.Deletion.del mask b q = true) k]
    rw [broadcastInDim_apply (![0, 1] : Fin 2 → Fin 2) _ (cntCol mask) (ix2 b k) (ix2 b (0 : Fin 1)) (fun a => by
      match a with
      | ⟨0, _⟩ => show b.val = if (4096 : Nat) = 1 then 0 else b.val; rw [if_neg (by decide)]
      | ⟨1, _⟩ => show (0 : Nat) = if (1 : Nat) = 1 then 0 else k.val; rw [if_pos rfl])]
    rw [cntCol_apply mask b _ rfl, BitVec.ofNat_add]

/-- THE KEPT COUNT of row `b` in the region's shape. -/
theorem cntW_apply (b : Fin 4096) :
    cntW mask (ix3 b (0 : Fin 1) (0 : Fin 1)) = BitVec.ofNat 32 (Cert.Deletion.nkept mask b) := by
  unfold cntW
  rw [shapeCast_apply (cntCol mask) _ (ix3 b (0 : Fin 1) (0 : Fin 1)) (ix2 b (0 : Fin 1)) (by
    rw [Shape.rowMajor_val_two, Shape.rowMajor_val_three]
    show b.val * 1 + 0 = (b.val * 1 + 0) * 1 + 0
    omega)]
  exact cntCol_apply mask b _ rfl

end Pure

/-! ## What the region finds -/

variable {F : FTy → Type} [FloatOps F]
variable (m : (ℓ : Loc nD τ sig) → Buf (Elt F) ℓ)

/-- The slot words the region finds are the host's arithmetic on the flag argument. -/
theorem V_main_v14 (c : Dev nD) :
    (V m c main_v14 : S4096x128.Idx → BitVec 32) = slotW (m ((c : Thread nD τ).loc main_arg2)) := by
  dsimp only [Gen.V]
  simp only [Gen.hostOps0, Gen.hostOps0_1, Gen.hostOps0_2, Gen.hostOps0_3, Gen.hostOps0_4, Gen.hostOps0_5, List.flatten_cons,
    List.flatten_nil, List.append_nil, List.cons_append, List.nil_append]
  after_results_simp
  simp only [StableHlo.TRef.toBuf, StableHlo.TRef.ofBuf, cast_eq]
  rfl

/-- The kept counts the region finds are the host's arithmetic on the flag argument. -/
theorem V_main_v9 (c : Dev nD) :
    (V m c main_v9 : S4096x1x1.Idx → BitVec 32) = cntW (m ((c : Thread nD τ).loc main_arg2)) := by
  dsimp only [Gen.V]
  simp only [Gen.hostOps0, Gen.hostOps0_1, Gen.hostOps0_2, Gen.hostOps0_3, Gen.hostOps0_4, Gen.hostOps0_5, List.flatten_cons,
    List.flatten_nil, List.append_nil, List.cons_append, List.nil_append]
  after_results_simp
  rfl

/-- The slot word of position `k` of row `b`, as the region finds it, is the counted slot. -/
theorem dest_eq (c : Dev nD) (b : Fin 4096) (k : Fin 128) :
    (V m c main_v14 : S4096x128.Idx → BitVec 32) (ix2 b k)
      = BitVec.ofNat 32 (Cert.Deletion.dest (m ((c : Thread nD τ).loc main_arg2)) b k) := by
  rw [V_main_v14]
  exact slotW_apply _ b k

/-- The kept count of row `b`, as the region finds it. -/
theorem nkept_eq (c : Dev nD) (b : Fin 4096) :
    (V m c main_v9 : S4096x1x1.Idx → BitVec 32) (ix3 b (0 : Fin 1) (0 : Fin 1))
      = BitVec.ofNat 32 (Cert.Deletion.nkept (m ((c : Thread nD τ).loc main_arg2)) b) := by
  rw [V_main_v9]
  exact cntW_apply _ b

end Cert.KernelIdeal.HostValue

end
-- ==== Proof.KernelBody.lean ====
/-
  What the kernel's body leaves in the output block, read at an index of the block: row `r` of the 64 rows of a grid
  point, position `j`, vocabulary entry `v`, in each of the two halves.

  The block is written by four stores, each a 32-row rectangle of one half. An index of the message half lies under
  exactly one of them (rows 0–31 or rows 32–63), and there the stored value is the row's arithmetic read at the index:
  a select on the signed comparison of the position with the kept count, between the end-of-sequence vector and the sum
  of two matrix products of the one-hot matrix "the slot of `k` is `j`" with the symbols and with their low parts. Every
  operation is read at the index: the pointwise ones by definition, the casts and broadcasts by their row-major
  positions, the products as sums over the contracted position.
-/
import proofs.«417069_j22445499089174_3_alg».proof.Proof.Gen.KernelIdeal.Frame
import proofs.«417069_j22445499089174_3_alg».proof.Proof.Spec
import Idealize.ShloMosaic.Lib.Pipeline.Value
import Idealize.ShloMosaic.Lib.ValueLayout
import Idealize.ShloMosaic.PureOps.Ideal.Laws
import Idealize.ShloMosaic.Lib.StableHlo.Predicate
import Idealize.ShloMosaic.Lib.IdealHost

noncomputable section

open scoped BigOperators

namespace Cert.KernelIdeal.BodyValue

open Cert.KernelIdeal Cert.KernelIdeal.Gen Idealize.ShloMosaic Idealize.ShloMosaic.TcCoe Idealize.SL.Sem Idealize.ShloMosaic.ValueIdx

/-! ## One-bit words -/

theorem bit_cases (b : BitVec 1) : b = 0#1 ∨ b = 1#1 := by
  revert b; decide

/-- A one-bit word widened to 32 bits and converted is 1 or 0. -/
theorem sitofp_bit (b : BitVec 1) :
    FloatOps.sitofp (F := Ideal) .f32 (b.setWidth 32) = if b = 1#1 then (1 : EReal) else 0 := by
  show (((b.setWidth 32).toInt : ℝ) : EReal) = _
  rcases bit_cases b with rfl | rfl
  · rw [if_neg (by decide)]
    have h : (BitVec.setWidth 32 (0#1)).toInt = 0 := by decide
    rw [h]; simp
  · rw [if_pos rfl]
    have h : (BitVec.setWidth 32 (1#1)).toInt = 1 := by decide
    rw [h]; simp

/-! ## Layout operations at an index -/

section Layout
variable {α : Type}

/-- An `[a, b]` array cast to `[a, 1, b]` reads, at `(p, u, q)`, the operand at `(p, q)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a, 1, c]` array broadcast to `[a, b, c]` reads, at `(p, q, w)`, the operand at `(p, 0, w)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (w : Fin c) :
    broadcastTo ⟨3, ![a, b, c]⟩ x h (ix3 p q w) = x (ix3 p (0 : Fin 1) w) := by
  refine broadcastTo_apply x h (ix3 p q w) (ix3 p (0 : Fin 1) w) fun ax => ?_
  match ax with
  | ⟨0, _⟩ =>
    show p.val = if a = 1 then 0 else p.val
    split
    · have := p.isLt; omega
    · rfl
  | ⟨1, _⟩ => rfl
  | ⟨2, _⟩ =>
    show w.val = if c = 1 then 0 else w.val
    split
    · have := w.isLt; omega
    · rfl

/-- An `[a, 1, 1]` array broadcast to `[a, b, c]` reads, at `(p, q, w)`, the operand at `(p, 0, 0)`. -/
theorem broadcastTo_a11_abc_apply {a b c : ℕ} (x : (⟨3, ![a, 1, 1]⟩ : Shape).Idx → α)
    (h : (⟨3, ![a, 1, 1]⟩ : Shape).Broadcasts ⟨3, ![a, b, c]⟩) (p : Fin a) (q : Fin b) (w : Fin c) :
    broadcastTo ⟨3, ![a, b, c]⟩ x h (ix3 p q w) = x (ix3 p (0 : Fin 1) (0 : Fin 1)) := by
  refine broadcastTo_apply x h (ix3 p q w) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Layout

/-! ## The batched matrix product at an index -/

/-- The product of a `[32, 128, 128]` stack by a `[32, 128, 64]` stack into the zero accumulator, matrix by matrix, read at
    `(r, j, v)`: the sum over the contracted position `k` of the entries at `(r, j, k)` and `(r, k, v)`. -/
theorem matmul_apply3 {φ₁ φ₂ : FTy} (A : FVec Ideal S32x128x128 φ₁) (B : FVec Ideal S32x128x64 φ₂)
    (r : Fin 32) (j : Fin 128) (v : Fin 64) :
    matmul dot_S32x128x128_S32x128x64_S32x128x64_2_1_1_2_0_0 none A B (constant (F := Ideal) S32x128x64 .f32 0x00000000#32) (ix3 r j v)
      = ∑ k : Fin 128, A (ix3 r j k) * B (ix3 r k v) := by
  show FloatOps.matmul dot_S32x128x128_S32x128x64_S32x128x64_2_1_1_2_0_0 none A B _ (ix3 r j v) = _
  rw [Ideal.matmul_constant_zero_apply,
    ← Equiv.sum_comp (contrEquiv1 dot_S32x128x128_S32x128x64_S32x128x64_2_1_1_2_0_0 128 rfl rfl).symm]
  refine Finset.sum_congr rfl fun c _ => ?_
  have c3 := contrEquiv1_symm_val dot_S32x128x128_S32x128x64_S32x128x64_2_1_1_2_0_0 128 rfl rfl c
  have l3 : dot_S32x128x128_S32x128x64_S32x128x64_2_1_1_2_0_0.lhsIdx (ix3 r j v)
      ((contrEquiv1 dot_S32x128x128_S32x128x64_S32x128x64_2_1_1_2_0_0 128 rfl rfl).symm c) = ix3 r j c := by
    funext ax; apply Fin.ext
    match ax with
    | ⟨0, _⟩ => simp [DotDims.lhsIdx, dot_S32x128x128_S32x128x64_S32x128x64_2_1_1_2_0_0]; rfl
    | ⟨1, _⟩ => simp [DotDims.lhsIdx, dot_S32x128x128_S32x128x64_S32x128x64_2_1_1_2_0_0]; rfl
    | ⟨2, _⟩ => simp [DotDims.lhsIdx, dot_S32x128x128_S32x128x64_S32x128x64_2_1_1_2_0_0]; exact c3
  have r3 : dot_S32x128x128_S32x128x64_S32x128x64_2_1_1_2_0_0.rhsIdx (ix3 r j v)
      ((contrEquiv1 dot_S32x128x128_S32x128x64_S32x128x64_2_1_1_2_0_0 128 rfl rfl).symm c) = ix3 r c v := by
    funext ax; apply Fin.ext
    match ax with
    | ⟨0, _⟩ => simp [DotDims.rhsIdx, dot_S32x128x128_S32x128x64_S32x128x64_2_1_1_2_0_0]; rfl
    | ⟨1, _⟩ => simp [DotDims.rhsIdx, dot_S32x128x128_S32x128x64_S32x128x64_2_1_1_2_0_0]; exact c3
    | ⟨2, _⟩ => simp [DotDims.rhsIdx, dot_S32x128x128_S32x128x64_S32x128x64_2_1_1_2_0_0]; rfl
  rw [l3, r3]

/-! ## The word decodes -/

open Idealize.ShloMosaic.StableHlo.Predicate in
/-- A select on a one-bit word is the conditional on whatever the word's being set means. -/
theorem select_ite {α : Type} (c : BitVec 1) (a b : α) (P : Prop) [Decidable P] (h : c = 1#1 ↔ P) :
    Scalar.select c a b = if P then a else b := by
  by_cases hp : P
  · rw [if_pos hp, h.mpr hp, select_one]
  · rw [if_neg hp, eq_zero_of_ne_one (fun hc => hp (h.mp hc)), select_zero]

open Idealize.ShloMosaic.StableHlo.Predicate in
/-- The vocabulary coordinate compared with zero, widened and converted: the end-of-sequence vector. -/
theorem eos_apply (r : Fin 32) (j : Fin 128) (v : Fin 64) :
    (sitofp (F := Ideal) .f32 (extui 32 (cmpi .eq (iota .tc S32x128x64 32 [2] iota_S32x128x64_d2_w32) (broadcast S32x128x64 0#32)) natLt_1_32)
      : FVec Ideal S32x128x64 .f32) (ix3 r j v) = Cert.Deletion.eos v := by
  refine (sitofp_bit _).trans ?_
  unfold Cert.Deletion.eos
  refine if_congr ?_ rfl rfl
  show IntOp.cmpi .eq (iota .tc S32x128x64 32 [2] iota_S32x128x64_d2_w32 (ix3 r j v)) 0#32 = 1#1 ↔ _
  rw [iota_single_apply, cmpi_eq_iff]
  show BitVec.ofNat 32 v.val = 0#32 ↔ v.val = 0
  constructor
  · intro h
    have h' := congrArg BitVec.toNat h
    simp only [BitVec.toNat_ofNat] at h'
    have := v.isLt
    omega
  · intro h; rw [h]

open Idealize.ShloMosaic.StableHlo.Predicate in
/-- The one-hot matrix "the slot of position `k` is `j`": the position coordinate compared with the row of slot words,
    widened and converted (the change of float format is the identity here). -/
theorem onehot_apply (d : Vec Ideal S32x128 .i32) (r : Fin 32) (j k : Fin 128) :
    (truncf .bf16 (sitofp (F := Ideal) .f32 (extui 32 (cmpi .eq (iota .tc S32x128x128 32 [1] iota_S32x128x128_d1_w32)
        (broadcastTo S32x128x128 (shapeCast S32x1x128 d shapeCasts_S32x128_S32x1x128) broadcasts_S32x1x128_S32x128x128)) natLt_1_32))
      bitsLt_bf16_f32 : FVec Ideal S32x128x128 .bf16) (ix3 r j k)
      = if d (ix2 r k) = BitVec.ofNat 32 j.val then (1 : EReal) else 0 := by
  refine (sitofp_bit _).trans ?_
  refine if_congr ?_ rfl rfl
  show IntOp.cmpi .eq (iota .tc S32x128x128 32 [1] iota_S32x128x128_d1_w32 (ix3 r j k))
    (broadcastTo S32x128x128 (shapeCast S32x1x128 d shapeCasts_S32x128_S32x1x128) broadcasts_S32x1x128_S32x128x128 (ix3 r j k)) = 1#1 ↔ _
  rw [iota_single_apply, broadcastTo_a1c_abc_apply, shapeCast_ab_a1b_apply, cmpi_eq_iff]
  exact eq_comm

open Idealize.ShloMosaic.StableHlo.Predicate in
/-- The position coordinate compared (signed, ≥) with the row's kept count: set exactly from the count on. -/
theorem sge_row_apply (x : Vec Ideal S32x1x1 .i32) (r : Fin 32) (j : Fin 128) (v : Fin 64) :
    cmpi .sge (iota .tc S32x128x64 32 [1] iota_S32x128x64_d1_w32) (broadcastTo S32x128x64 x broadcasts_S32x1x1_S32x128x64) (ix3 r j v) = 1#1
      ↔ (x (ix3 r (0 : Fin 1) (0 : Fin 1))).toInt ≤ (j.val : ℤ) := by
  show IntOp.cmpi .sge (iota .tc S32x128x64 32 [1] iota_S32x128x64_d1_w32 (ix3 r j v))
    (broadcastTo S32x128x64 x broadcasts_S32x1x1_S32x128x64 (ix3 r j v)) = 1#1 ↔ _
  rw [iota_single_apply, broadcastTo_a11_abc_apply]
  show BitVec.ofBool ((x (ix3 r (0 : Fin 1) (0 : Fin 1))).sle (BitVec.ofNat 32 j.val)) = 1#1 ↔ _
  have hj : (BitVec.ofNat 32 j.val).toInt = (j.val : ℤ) := toInt_ofNat_small j.val (by have := j.isLt; omega)
  simp only [BitVec.sle, hj, ofBool_eq_one_iff, decide_eq_true_eq]

/-! ## The message payloads at an index -/

/-- Rows 0–31: the message arithmetic of one row. -/
theorem pay3_apply (v0 : Vec Ideal S32x128 .i32) (v2 : Vec Ideal S32x1x1 .i32) (v11 : Vec Ideal S32x128x64 .f32)
    (r : Fin 32) (j : Fin 128) (v : Fin 64) :
    k0_pay3 v0 v2 v11 (ix3 r j v)
      = Cert.Deletion.kMsg (fun k => v0 (ix2 r k)) (v2 (ix3 r (0 : Fin 1) (0 : Fin 1))) (fun k v => v11 (ix3 r k v)) j v := by
  unfold k0_pay3
  simp only [shapeCast_self]
  refine (select_apply _ _ _ _).trans ?_
  refine (select_ite _ _ _ _ (sge_row_apply v2 r j v)).trans ?_
  unfold Cert.Deletion.kMsg
  refine if_congr Iff.rfl (eos_apply r j v) ?_
  refine (addf_apply _ _ _).trans ?_
  refine congrArg₂ (· + ·) ?_ ?_
  · refine (matmul_apply3 _ _ r j v).trans (Finset.sum_congr rfl fun k _ => ?_)
    exact congrArg₂ (· * ·) (onehot_apply v0 r j k) rfl
  · refine (matmul_apply3 _ _ r j v).trans (Finset.sum_congr rfl fun k _ => ?_)
    exact congrArg₂ (· * ·) (onehot_apply v0 r j k) rfl

/-- Rows 32–63: the two sums over the positions the one-hot row selects. -/
theorem pay8_apply (v51 : Vec Ideal S32x128 .i32) (v62 : Vec Ideal S32x128x64 .f32) (r : Fin 32) (j : Fin 128) (v : Fin 64) :
    k0_pay8 v51 v62 (ix3 r j v)
      = (∑ k : Fin 128, (if v51 (ix2 r k) = BitVec.ofNat 32 j.val then (1 : EReal) else 0) * v62 (ix3 r k v))
        + ∑ k : Fin 128, (if v51 (ix2 r k) = BitVec.ofNat 32 j.val then (1 : EReal) else 0) * (v62 (ix3 r k v) - v62 (ix3 r k v)) := by
  unfold k0_pay8
  simp only [shapeCast_self]
  refine (addf_apply _ _ _).trans ?_
  refine congrArg₂ (· + ·) ?_ ?_
  · refine (matmul_apply3 _ _ r j v).trans (Finset.sum_congr rfl fun k _ => ?_)
    exact congrArg₂ (· * ·) (onehot_apply v51 r j k) rfl
  · refine (matmul_apply3 _ _ r j v).trans (Finset.sum_congr rfl fun k _ => ?_)
    exact congrArg₂ (· * ·) (onehot_apply v51 r j k) rfl

/-- Rows 32–63: the end-of-sequence mask. -/
theorem pay9_apply (v53 : Vec Ideal S32x1x1 .i32) (r : Fin 32) (j : Fin 128) (v : Fin 64) :
    k0_pay9 v53 (ix3 r j v) = 1#1 ↔ (v53 (ix3 r (0 : Fin 1) (0 : Fin 1))).toInt ≤ (j.val : ℤ) := by
  unfold k0_pay9
  simp only [shapeCast_self]
  exact sge_row_apply v53 r j v

/-- Rows 32–63: the end-of-sequence vector, from its word. -/
theorem pay10_sitofp (r : Fin 32) (j : Fin 128) (v : Fin 64) :
    FloatOps.sitofp (F := Ideal) .f32 (k0_pay10 (ix3 r j v)) = Cert.Deletion.eos v := by
  unfold k0_pay10
  exact eos_apply r j v

/-- Rows 32–63: the message arithmetic of one row, as stored. -/
theorem pay1_apply (v51 : Vec Ideal S32x128 .i32) (v53 : Vec Ideal S32x1x1 .i32) (v62 : Vec Ideal S32x128x64 .f32)
    (r : Fin 32) (j : Fin 128) (v : Fin 64) :
    k0_pay1 (k0_pay8 v51 v62) (k0_pay9 v53) k0_pay10 (ix4 (0 : Fin 1) r j v)
      = Cert.Deletion.kMsg (fun k => v51 (ix2 r k)) (v53 (ix3 r (0 : Fin 1) (0 : Fin 1))) (fun k v => v62 (ix3 r k v)) j v := by
  unfold k0_pay1
  refine (shapeCast_abc_1abc_apply _ _ (0 : Fin 1) r j v).trans ?_
  refine (select_apply _ _ _ _).trans ?_
  refine (select_ite _ _ _ _ (pay9_apply v53 r j v)).trans ?_
  unfold Cert.Deletion.kMsg
  exact if_congr Iff.rfl (pay10_sitofp r j v) (pay8_apply v51 v62 r j v)

/-- Rows 0–31: the message arithmetic of one row, as stored. -/
theorem pay6_apply (v0 : Vec Ideal S32x128 .i32) (v2 : Vec Ideal S32x1x1 .i32) (v11 : Vec Ideal S32x128x64 .f32)
    (r : Fin 32) (j : Fin 128) (v : Fin 64) :
    k0_pay6 (k0_pay3 v0 v2 v11) (ix4 (0 : Fin 1) r j v)
      = Cert.Deletion.kMsg (fun k => v0 (ix2 r k)) (v2 (ix3 r (0 : Fin 1) (0 : Fin 1))) (fun k v => v11 (ix3 r k v)) j v := by
  unfold k0_pay6
  exact (shapeCast_abc_1abc_apply _ _ (0 : Fin 1) r j v).trans (pay3_apply v0 v2 v11 r j v)

/-! ## Which store an index of the message half falls under, and what the loads read there -/

/-- The message half lies off the last store (half 1, rows 32–63). -/
theorem not_mem_r0_9 (r : Fin 64) (j : Fin 128) (v : Fin 64) : ix4 (0 : Fin 2) r j v ∉ r0_9.set := fun h => by
  obtain ⟨q, _, e⟩ := (LoadRect.mem_set _).mp h 0
  have e' : (0 : ℕ) = 1 + 1 * q := e
  omega

/-- The message half lies off the second store (half 1, rows 0–31). -/
theorem not_mem_r0_4 (r : Fin 64) (j : Fin 128) (v : Fin 64) : ix4 (0 : Fin 2) r j v ∉ r0_4.set := fun h => by
  obtain ⟨q, _, e⟩ := (LoadRect.mem_set _).mp h 0
  have e' : (0 : ℕ) = 1 + 1 * q := e
  omega

/-- A row below 32 lies off the third store (half 0, rows 32–63). -/
theorem not_mem_r0_8 (r : Fin 64) (hr : r.val < 32) (j : Fin 128) (v : Fin 64) : ix4 (0 : Fin 2) r j v ∉ r0_8.set := fun h => by
  obtain ⟨q, _, e⟩ := (LoadRect.mem_set _).mp h 1
  have e' : r.val = 32 + 1 * q := e
  omega

/-- Rows 0–31 of half 0 are the first store's rectangle. -/
theorem emb_r0_3 (r : Fin 64) (hr : r.val < 32) (j : Fin 128) (v : Fin 64) :
    r0_3.emb (ix4 (0 : Fin 1) (⟨r.val, hr⟩ : Fin 32) j v) = ix4 (0 : Fin 2) r j v := by
  funext a; apply Fin.ext
  match a with
  | ⟨0, _⟩ => rfl
  | ⟨1, _⟩ => show 0 + 1 * r.val = r.val; omega
  | ⟨2, _⟩ => show 0 + 1 * j.val = j.val; omega
  | ⟨3, _⟩ => show 0 + 1 * v.val = v.val; omega

/-- Rows 32–63 of half 0 are the third store's rectangle. -/
theorem emb_r0_8 (r : Fin 64) (hr : 32 ≤ r.val) (j : Fin 128) (v : Fin 64) :
    r0_8.emb (ix4 (0 : Fin 1) (⟨r.val - 32, by have := r.isLt; omega⟩ : Fin 32) j v) = ix4 (0 : Fin 2) r j v := by
  funext a; apply Fin.ext
  match a with
  | ⟨0, _⟩ => rfl
  | ⟨1, _⟩ => show 32 + 1 * (r.val - 32) = r.val; omega
  | ⟨2, _⟩ => show 0 + 1 * j.val = j.val; omega
  | ⟨3, _⟩ => show 0 + 1 * v.val = v.val; omega

/-- The loads of rows 0–31 read the blocks at the same row. -/
theorem idx_r0_0 (r : Fin 64) (hr : r.val < 32) (k : Fin 128) :
    r0_0.idx (ix2 (⟨r.val, hr⟩ : Fin 32) k) = ix2 r k := by
  funext a; apply Fin.ext
  match a with
  | ⟨0, _⟩ => show 0 + 1 * r.val = r.val; omega
  | ⟨1, _⟩ => show 0 + 1 * k.val = k.val; omega

theorem idx_r0_1 (r : Fin 64) (hr : r.val < 32) :
    r0_1.idx (ix3 (⟨r.val, hr⟩ : Fin 32) (0 : Fin 1) (0 : Fin 1)) = ix3 r (0 : Fin 1) (0 : Fin 1) := by
  funext a; apply Fin.ext
  match a with
  | ⟨0, _⟩ => show 0 + 1 * r.val = r.val; omega
  | ⟨1, _⟩ => rfl
  | ⟨2, _⟩ => rfl

theorem idx_r0_2 (r : Fin 64) (hr : r.val < 32) (k : Fin 128) (v : Fin 64) :
    r0_2.idx (ix3 (⟨r.val, hr⟩ : Fin 32) k v) = ix3 r k v := by
  funext a; apply Fin.ext
  match a with
  | ⟨0, _⟩ => show 0 + 1 * r.val = r.val; omega
  | ⟨1, _⟩ => show 0 + 1 * k.val = k.val; omega
  | ⟨2, _⟩ => show 0 + 1 * v.val = v.val; omega

/-- The loads of rows 32–63 read the blocks 32 rows down. -/
theorem idx_r0_5 (r : Fin 64) (hr : 32 ≤ r.val) (k : Fin 128) :
    r0_5.idx (ix2 (⟨r.val - 32, by have := r.isLt; omega⟩ : Fin 32) k) = ix2 r k := by
  funext a; apply Fin.ext
  match a with
  | ⟨0, _⟩ => show 32 + 1 * (r.val - 32) = r.val; omega
  | ⟨1, _⟩ => show 0 + 1 * k.val = k.val; omega

theorem idx_r0_6 (r : Fin 64) (hr : 32 ≤ r.val) :
    r0_6.idx (ix3 (⟨r.val - 32, by have := r.isLt; omega⟩ : Fin 32) (0 : Fin 1) (0 : Fin 1)) = ix3 r (0 : Fin 1) (0 : Fin 1) := by
  funext a; apply Fin.ext
  match a with
  | ⟨0, _⟩ => show 32 + 1 * (r.val - 32) = r.val; omega
  | ⟨1, _⟩ => rfl
  | ⟨2, _⟩ => rfl

theorem idx_r0_7 (r : Fin 64) (hr : 32 ≤ r.val) (k : Fin 128) (v : Fin 64) :
    r0_7.idx (ix3 (⟨r.val - 32, by have := r.isLt; omega⟩ : Fin 32) k v) = ix3 r k v := by
  funext a; apply Fin.ext
  match a with
  | ⟨0, _⟩ => show 32 + 1 * (r.val - 32) = r.val; omega
  | ⟨1, _⟩ => show 0 + 1 * k.val = k.val; omega
  | ⟨2, _⟩ => show 0 + 1 * v.val = v.val; omega

/-! ## The output block -/

/-- The message half of the block. -/
theorem out0_4_msg (x0 x1 : Vec Ideal S64x128x64 .f32) (x2 : Vec Ideal S64x128 .i32) (x3 : Vec Ideal S64x1x1 .i32)
    (r : Fin 64) (j : Fin 128) (v : Fin 64) :
    out0_4 (F := Ideal) x0 x1 x2 x3 (ix4 (0 : Fin 2) r j v)
      = Cert.Deletion.kMsg (fun k => x2 (ix2 r k)) (x3 (ix3 r (0 : Fin 1) (0 : Fin 1))) (fun k v => x0 (ix3 r k v)) j v := by
  unfold out0_4
  refine (View.canon_cons_of_not_mem ⟨r0_9, _⟩ _ (not_mem_r0_9 r j v)).trans ?_
  by_cases hr : r.val < 32
  · refine (View.canon_cons_of_not_mem ⟨r0_8, _⟩ _ (not_mem_r0_8 r hr j v)).trans ?_
    refine (View.canon_cons_of_not_mem ⟨r0_4, _⟩ _ (not_mem_r0_4 r j v)).trans ?_
    refine (congrArg _ (emb_r0_3 r hr j v).symm).trans ?_
    refine (View.canon_cons_emb r0_3 _ [] _).trans ?_
    refine (pay6_apply _ _ _ ⟨r.val, hr⟩ j v).trans ?_
    have e0 : (fun k => View.ld x2 r0_0 (ix2 (⟨r.val, hr⟩ : Fin 32) k)) = fun k => x2 (ix2 r k) :=
      funext fun k => congrArg x2 (idx_r0_0 r hr k)
    have e1 : View.ld x3 r0_1 (ix3 (⟨r.val, hr⟩ : Fin 32) (0 : Fin 1) (0 : Fin 1)) = x3 (ix3 r (0 : Fin 1) (0 : Fin 1)) :=
      congrArg x3 (idx_r0_1 r hr)
    have e2 : (fun k v => View.ld x0 r0_2 (ix3 (⟨r.val, hr⟩ : Fin 32) k v)) = fun k v => x0 (ix3 r k v) :=
      funext fun k => funext fun v => congrArg x0 (idx_r0_2 r hr k v)
    rw [e0, e1, e2]
  · have hr' : 32 ≤ r.val := Nat.le_of_not_lt hr
    refine (congrArg _ (emb_r0_8 r hr' j v).symm).trans ?_
    refine (View.canon_cons_emb r0_8 _ _ _).trans ?_
    refine (pay1_apply _ _ _ ⟨r.val - 32, by have := r.isLt; omega⟩ j v).trans ?_
    have e0 : (fun k => View.ld x2 r0_5 (ix2 (⟨r.val - 32, by have := r.isLt; omega⟩ : Fin 32) k)) = fun k => x2 (ix2 r k) :=
      funext fun k => congrArg x2 (idx_r0_5 r hr' k)
    have e1 : View.ld x3 r0_6 (ix3 (⟨r.val - 32, by have := r.isLt; omega⟩ : Fin 32) (0 : Fin 1) (0 : Fin 1)) = x3 (ix3 r (0 : Fin 1) (0 : Fin 1)) :=
      congrArg x3 (idx_r0_6 r hr')
    have e2 : (fun k v => View.ld x0 r0_7 (ix3 (⟨r.val - 32, by have := r.isLt; omega⟩ : Fin 32) k v)) = fun k v => x0 (ix3 r k v) :=
      funext fun k => funext fun v => congrArg x0 (idx_r0_7 r hr' k v)
    rw [e0, e1, e2]

/-! ## The probability half -/

section Layout2
variable {α : Type}

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast to `[a, b, c]` reads, at `(p, q, w)`, the operand at `(p, q, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (w : Fin c) :
    broadcastTo ⟨3, ![a, b, c]⟩ x h (ix3 p q w) = x (ix3 p q (0 : Fin 1)) := by
  refine broadcastTo_apply x h (ix3 p q w) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Layout2

/-- The sum over the vocabulary axis at `(r, j)`. -/
theorem laneSum_apply (x : FVec Ideal S32x128x64 .f32) (hacc : (0x00000000#32 : BitVec 32) = 0x00000000#32) (r : Fin 32) (j : Fin 128) :
    multiReduction (F := Ideal) .add [2] S32x128 x 0x00000000#32 reduces_S32x128x64_S32x128 (.inl rfl) hacc (ix2 r j)
      = ∑ v : Fin 64, x (ix3 r j v) := by
  refine (Ideal.multiReduction_add_single x 0x00000000#32 reduces_S32x128x64_S32x128 (.inl rfl) hacc (ix2 r j)).trans ?_
  refine Finset.sum_congr rfl fun k _ => congrArg x ?_
  funext a; apply Fin.ext
  match a with
  | ⟨0, _⟩ => rfl
  | ⟨1, _⟩ => rfl
  | ⟨2, _⟩ => rfl

open Idealize.ShloMosaic.StableHlo.Predicate in
theorem vocab_eq_zero_iff (v : Fin 64) : IntOp.cmpi .eq (BitVec.ofNat 32 v.val) 0#32 = 1#1 ↔ v.val = 0 := by
  rw [cmpi_eq_iff]
  constructor
  · intro h
    have h' := congrArg BitVec.toNat h
    simp only [BitVec.toNat_ofNat] at h'
    have := v.isLt
    omega
  · intro h; rw [h]

open Idealize.ShloMosaic.StableHlo.Predicate in
theorem vocab_ne_zero_iff (v : Fin 64) : IntOp.cmpi .ne (BitVec.ofNat 32 v.val) 0#32 = 1#1 ↔ ¬ v.val = 0 := by
  unfold IntOp.cmpi
  rw [ofBool_eq_one_iff, bne_iff_ne]
  refine not_congr ?_
  constructor
  · intro h
    have h' := congrArg BitVec.toNat h
    simp only [BitVec.toNat_ofNat] at h'
    have := v.isLt
    omega
  · intro h; rw [h]

/-- Rows 32–63: the probability arithmetic of one position, as stored. -/
theorem pay2_apply (v80 : Vec Ideal S32x128x64 .f32) (r : Fin 32) (j : Fin 128) (v : Fin 64) :
    k0_pay2 (iota .tc S32x128x64 32 [2] iota_S32x128x64_d2_w32) v80 (ix4 (0 : Fin 1) r j v)
      = Cert.Deletion.kProb (fun v => v80 (ix3 r j v)) v := by
  unfold k0_pay2
  simp only [shapeCast_self]
  refine (shapeCast_abc_1abc_apply _ _ (0 : Fin 1) r j v).trans ?_
  refine (select_apply _ _ _ _).trans ?_
  refine (select_ite _ _ _ (v.val = 0) ?_).trans ?_
  · show IntOp.cmpi .eq (iota .tc S32x128x64 32 [2] iota_S32x128x64_d2_w32 (ix3 r j v)) 0#32 = 1#1 ↔ _
    rw [iota_single_apply]; exact vocab_eq_zero_iff v
  unfold Cert.Deletion.kProb
  refine if_congr Iff.rfl ?_ rfl
  refine (broadcastTo_ab1_abc_apply _ _ r j v).trans ?_
  refine (subf_apply _ _ _).trans ?_
  refine congrArg₂ (· - ·) Ideal.ofBits_one_f32 ?_
  refine (shapeCast_ab_ab1_apply _ _ r j (0 : Fin 1)).trans ?_
  refine (laneSum_apply _ _ r j).trans (Finset.sum_congr rfl fun v' _ => ?_)
  refine (select_apply _ _ _ _).trans ?_
  refine (select_ite _ _ _ (¬ v'.val = 0) ?_).trans ?_
  · show IntOp.cmpi .ne (iota .tc S32x128x64 32 [2] iota_S32x128x64_d2_w32 (ix3 r j v')) 0#32 = 1#1 ↔ _
    rw [iota_single_apply]; exact vocab_ne_zero_iff v'
  rw [ite_not]
  exact if_congr Iff.rfl Ideal.ofBits_zero_f32 rfl

/-- Rows 0–31: the scaled probabilities. -/
theorem pay4_apply (p : Vec Ideal S32x128x64 .f32) (r : Fin 32) (j : Fin 128) (v : Fin 64) :
    k0_pay4 p (ix3 r j v) = p (ix3 r j v) * Cert.Deletion.c9 := rfl

/-- Rows 0–31: what is left of 1 after the scaled probabilities off entry 0. -/
theorem pay5_apply (p : Vec Ideal S32x128x64 .f32) (r : Fin 32) (j : Fin 128) (u : Fin 1) :
    k0_pay5 p (ix3 r j u)
      = 1 - ∑ v' : Fin 64, (if v'.val = 0 then (0 : EReal) else p (ix3 r j v') * Cert.Deletion.c9) := by
  unfold k0_pay5
  refine (subf_apply _ _ _).trans ?_
  refine congrArg₂ (· - ·) Ideal.ofBits_one_f32 ?_
  refine (shapeCast_ab_ab1_apply _ _ r j u).trans ?_
  refine (laneSum_apply _ _ r j).trans (Finset.sum_congr rfl fun v' _ => ?_)
  refine (select_apply _ _ _ _).trans ?_
  refine (select_ite _ _ _ (¬ v'.val = 0) ?_).trans ?_
  · show IntOp.cmpi .ne (iota .tc S32x128x64 32 [2] iota_S32x128x64_d2_w32 (ix3 r j v')) 0#32 = 1#1 ↔ _
    rw [iota_single_apply]; exact vocab_ne_zero_iff v'
  rw [ite_not]
  exact if_congr Iff.rfl Ideal.ofBits_zero_f32 (pay4_apply p r j v')

/-- Rows 0–31: the probability arithmetic of one position, as stored. -/
theorem pay7_apply (p : Vec Ideal S32x128x64 .f32) (r : Fin 32) (j : Fin 128) (v : Fin 64) :
    k0_pay7 (iota .tc S32x128x64 32 [2] iota_S32x128x64_d2_w32) (k0_pay4 p) (k0_pay5 p) (ix4 (0 : Fin 1) r j v)
      = Cert.Deletion.kProb (fun v => p (ix3 r j v)) v := by
  unfold k0_pay7
  simp only [shapeCast_self]
  refine (shapeCast_abc_1abc_apply _ _ (0 : Fin 1) r j v).trans ?_
  refine (select_apply _ _ _ _).trans ?_
  refine (select_ite _ _ _ (v.val = 0) ?_).trans ?_
  · show IntOp.cmpi .eq (iota .tc S32x128x64 32 [2] iota_S32x128x64_d2_w32 (ix3 r j v)) 0#32 = 1#1 ↔ _
    rw [iota_single_apply]; exact vocab_eq_zero_iff v
  unfold Cert.Deletion.kProb
  refine if_congr Iff.rfl ?_ (pay4_apply p r j v)
  exact (broadcastTo_ab1_abc_apply _ _ r j v).trans (pay5_apply p r j (0 : Fin 1))

/-- The probability half lies off the third store (half 0, rows 32–63). -/
theorem not_mem_r0_8' (r : Fin 64) (j : Fin 128) (v : Fin 64) : ix4 (1 : Fin 2) r j v ∉ r0_8.set := fun h => by
  obtain ⟨q, hq, e⟩ := (LoadRect.mem_set _).mp h 0
  have hq' : q < 1 := hq
  have e' : (1 : ℕ) = 0 + 1 * q := e
  omega

/-- A row below 32 lies off the last store (half 1, rows 32–63). -/
theorem not_mem_r0_9' (r : Fin 64) (hr : r.val < 32) (j : Fin 128) (v : Fin 64) : ix4 (1 : Fin 2) r j v ∉ r0_9.set := fun h => by
  obtain ⟨q, _, e⟩ := (LoadRect.mem_set _).mp h 1
  have e' : r.val = 32 + 1 * q := e
  omega

theorem emb_r0_4 (r : Fin 64) (hr : r.val < 32) (j : Fin 128) (v : Fin 64) :
    r0_4.emb (ix4 (0 : Fin 1) (⟨r.val, hr⟩ : Fin 32) j v) = ix4 (1 : Fin 2) r j v := by
  funext a; apply Fin.ext
  match a with
  | ⟨0, _⟩ => rfl
  | ⟨1, _⟩ => show 0 + 1 * r.val = r.val; omega
  | ⟨2, _⟩ => show 0 + 1 * j.val = j.val; omega
  | ⟨3, _⟩ => show 0 + 1 * v.val = v.val; omega

theorem emb_r0_9 (r : Fin 64) (hr : 32 ≤ r.val) (j : Fin 128) (v : Fin 64) :
    r0_9.emb (ix4 (0 : Fin 1) (⟨r.val - 32, by have := r.isLt; omega⟩ : Fin 32) j v) = ix4 (1 : Fin 2) r j v := by
  funext a; apply Fin.ext
  match a with
  | ⟨0, _⟩ => rfl
  | ⟨1, _⟩ => show 32 + 1 * (r.val - 32) = r.val; omega
  | ⟨2, _⟩ => show 0 + 1 * j.val = j.val; omega
  | ⟨3, _⟩ => show 0 + 1 * v.val = v.val; omega

theorem idx_r0_2' (r : Fin 64) (hr : r.val < 32) (k : Fin 128) (v : Fin 64) :
    r0_2.idx (ix3 (⟨r.val, hr⟩ : Fin 32) k v) = ix3 r k v := by
  funext a; apply Fin.ext
  match a with
  | ⟨0, _⟩ => show 0 + 1 * r.val = r.val; omega
  | ⟨1, _⟩ => show 0 + 1 * k.val = k.val; omega
  | ⟨2, _⟩ => show 0 + 1 * v.val = v.val; omega

theorem idx_r0_7' (r : Fin 64) (hr : 32 ≤ r.val) (k : Fin 128) (v : Fin 64) :
    r0_7.idx (ix3 (⟨r.val - 32, by have := r.isLt; omega⟩ : Fin 32) k v) = ix3 r k v := by
  funext a; apply Fin.ext
  match a with
  | ⟨0, _⟩ => show 32 + 1 * (r.val - 32) = r.val; omega
  | ⟨1, _⟩ => show 0 + 1 * k.val = k.val; omega
  | ⟨2, _⟩ => show 0 + 1 * v.val = v.val; omega

/-- The probability half of the block. -/
theorem out0_4_prob (x0 x1 : Vec Ideal S64x128x64 .f32) (x2 : Vec Ideal S64x128 .i32) (x3 : Vec Ideal S64x1x1 .i32)
    (r : Fin 64) (j : Fin 128) (v : Fin 64) :
    out0_4 (F := Ideal) x0 x1 x2 x3 (ix4 (1 : Fin 2) r j v) = Cert.Deletion.kProb (fun v => x1 (ix3 r j v)) v := by
  unfold out0_4
  by_cases hr : r.val < 32
  · refine (View.canon_cons_of_not_mem ⟨r0_9, _⟩ _ (not_mem_r0_9' r hr j v)).trans ?_
    refine (View.canon_cons_of_not_mem ⟨r0_8, _⟩ _ (not_mem_r0_8' r j v)).trans ?_
    refine (congrArg _ (emb_r0_4 r hr j v).symm).trans ?_
    refine (View.canon_cons_emb r0_4 _ _ _).trans ?_
    refine (pay7_apply _ ⟨r.val, hr⟩ j v).trans ?_
    have e : (fun v => View.ld x1 r0_2 (ix3 (⟨r.val, hr⟩ : Fin 32) j v)) = fun v => x1 (ix3 r j v) :=
      funext fun v => congrArg x1 (idx_r0_2' r hr j v)
    rw [e]
  · have hr' : 32 ≤ r.val := Nat.le_of_not_lt hr
    refine (congrArg _ (emb_r0_9 r hr' j v).symm).trans ?_
    refine (View.canon_cons_emb r0_9 _ _ _).trans ?_
    refine (pay2_apply _ ⟨r.val - 32, by have := r.isLt; omega⟩ j v).trans ?_
    have e : (fun v => View.ld x1 r0_7 (ix3 (⟨r.val - 32, by have := r.isLt; omega⟩ : Fin 32) j v)) = fun v => x1 (ix3 r j v) :=
      funext fun v => congrArg x1 (idx_r0_7' r hr' j v)
    rw [e]

end Cert.KernelIdeal.BodyValue

end
-- ==== Proof.KernelArray.lean ====
/-
  From the blocks to the array: grid point `t` writes rows `64 t … 64 t + 63` of both halves, the 64 points cover the
  array, and every block is the restriction of one function of the arrays the region finds.
-/
import proofs.«417069_j22445499089174_3_alg».proof.Proof.Gen.KernelIdeal.Value
import proofs.«417069_j22445499089174_3_alg».proof.Proof.KernelBody
import proofs.«417069_j22445499089174_3_alg».proof.Proof.Spec
import Idealize.ShloMosaic.Lib.Pipeline.Value

noncomputable section

open scoped BigOperators

namespace Cert.KernelIdeal.ArrayValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the 64 grid points: each input window's block index is the point on the row
    axis and zero on the others; the output's is the point on the row axis and zero on the half, position and
    vocabulary axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 4) = 0 ∧ win0_4.index t (1 : Fin 4) = t.val ∧ win0_4.index t (2 : Fin 4) = 0
    ∧ win0_4.index t (3 : Fin 4) = 0 :=
  (by decide +kernel : ∀ t : Fin grid0.N, _)

/-- The symbols' block at point `t` is rows `64 t … 64 t + 63` of the symbols' array. -/
theorem iblk0_apply (c : Dev nD) (t : Fin cfg0.N) (x : S64x128x64.Idx) (k : S4096x128x64.Idx)
    (hk0 : (k 0).val = 64 * t.val + (x 0).val) (hk1 : (k 1).val = (x 1).val) (hk2 : (k 2).val = (x 2).val) :
    (iblk m c 0 t : Vec Ideal S64x128x64 .f32) x = (V m c main_arg0 : S4096x128x64.Idx → EReal) k := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 64 + 1 * (x 0).val = (k 0).val; rw [e0, hk0]; omega
  | ⟨1, _⟩ => show win0_0.index t (1 : Fin 3) * 128 + 1 * (x 1).val = (k 1).val; rw [e1, hk1]; omega
  | ⟨2, _⟩ => show win0_0.index t (2 : Fin 3) * 64 + 1 * (x 2).val = (k 2).val; rw [e2, hk2]; omega

/-- The probabilities' block at point `t` is rows `64 t … 64 t + 63` of the probabilities' array. -/
theorem iblk1_apply (c : Dev nD) (t : Fin cfg0.N) (x : S64x128x64.Idx) (k : S4096x128x64.Idx)
    (hk0 : (k 0).val = 64 * t.val + (x 0).val) (hk1 : (k 1).val = (x 1).val) (hk2 : (k 2).val = (x 2).val) :
    (iblk m c 1 t : Vec Ideal S64x128x64 .f32) x = (V m c main_arg1 : S4096x128x64.Idx → EReal) k := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 64 + 1 * (x 0).val = (k 0).val; rw [e0, hk0]; omega
  | ⟨1, _⟩ => show win0_1.index t (1 : Fin 3) * 128 + 1 * (x 1).val = (k 1).val; rw [e1, hk1]; omega
  | ⟨2, _⟩ => show win0_1.index t (2 : Fin 3) * 64 + 1 * (x 2).val = (k 2).val; rw [e2, hk2]; omega

/-- The slot words' block at point `t` is rows `64 t … 64 t + 63` of the slot words' array. -/
theorem iblk2_apply (c : Dev nD) (t : Fin cfg0.N) (x : S64x128.Idx) (k : S4096x128.Idx)
    (hk0 : (k 0).val = 64 * t.val + (x 0).val) (hk1 : (k 1).val = (x 1).val) :
    (iblk m c 2 t : Vec Ideal S64x128 .i32) x = (V m c main_v14 : S4096x128.Idx → BitVec 32) k := by
  obtain ⟨-, -, -, -, -, -, e0, e1, -⟩ := idx_facts t
  unfold iblk
  rw [View.read_apply]
  show V m c main_v14 _ = V m c main_v14 _
  congr 1
  funext a
  apply Fin.ext
  match a with
  | ⟨0, _⟩ => show win0_2.index t (0 : Fin 2) * 64 + 1 * (x 0).val = (k 0).val; rw [e0, hk0]; omega
  | ⟨1, _⟩ => show win0_2.index t (1 : Fin 2) * 128 + 1 * (x 1).val = (k 1).val; rw [e1, hk1]; omega

/-- The kept counts' block at point `t` is rows `64 t … 64 t + 63` of the kept counts' array. -/
theorem iblk3_apply (c : Dev nD) (t : Fin cfg0.N) (x : S64x1x1.Idx) (k : S4096x1x1.Idx)
    (hk0 : (k 0).val = 64 * t.val + (x 0).val) (hk1 : (k 1).val = (x 1).val) (hk2 : (k 2).val = (x 2).val) :
    (iblk m c 3 t : Vec Ideal S64x1x1 .i32) x = (V m c main_v9 : S4096x1x1.Idx → BitVec 32) k := by
  obtain ⟨-, -, -, -, -, -, -, -, e0, e1, e2, -⟩ := idx_facts t
  unfold iblk
  rw [View.read_apply]
  show V m c main_v9 _ = V m c main_v9 _
  congr 1
  funext a
  apply Fin.ext
  match a with
  | ⟨0, _⟩ => show win0_3.index t (0 : Fin 3) * 64 + 1 * (x 0).val = (k 0).val; rw [e0, hk0]; omega
  | ⟨1, _⟩ => show win0_3.index t (1 : Fin 3) * 1 + 1 * (x 1).val = (k 1).val; rw [e1, hk1]; omega
  | ⟨2, _⟩ => show win0_3.index t (2 : Fin 3) * 1 + 1 * (x 2).val = (k 2).val; rw [e2, hk2]; omega

/-- One block against the array, over any four blocks that are rows `64 T … 64 T + 63` of four arrays: what the body
    leaves at index `y` of the block is the kernel's function of the arrays at the index `i` of the array that `y`
    is, row `64 T + y₁` of the same half, position and vocabulary entry. -/
theorem block_eq (x0 x1 : Vec Ideal S64x128x64 .f32) (x2 : Vec Ideal S64x128 .i32) (x3 : Vec Ideal S64x1x1 .i32)
    (A0 A1 : Cert.Deletion.SMsg.Idx → EReal) (D : Cert.Deletion.SMask.Idx → BitVec 32) (N : Cert.Deletion.SCnt.Idx → BitVec 32)
    (T : Nat)
    (h0 : ∀ (x : S64x128x64.Idx) (k : Cert.Deletion.SMsg.Idx), (k 0).val = 64 * T + (x 0).val → (k 1).val = (x 1).val →
      (k 2).val = (x 2).val → x0 x = A0 k)
    (h1 : ∀ (x : S64x128x64.Idx) (k : Cert.Deletion.SMsg.Idx), (k 0).val = 64 * T + (x 0).val → (k 1).val = (x 1).val →
      (k 2).val = (x 2).val → x1 x = A1 k)
    (h2 : ∀ (x : S64x128.Idx) (k : Cert.Deletion.SMask.Idx), (k 0).val = 64 * T + (x 0).val → (k 1).val = (x 1).val →
      x2 x = D k)
    (h3 : ∀ (x : S64x1x1.Idx) (k : Cert.Deletion.SCnt.Idx), (k 0).val = 64 * T + (x 0).val → (k 1).val = (x 1).val →
      (k 2).val = (x 2).val → x3 x = N k)
    (y : S2x64x128x64.Idx) (i : Cert.Deletion.SOut.Idx)
    (hi0 : (i 0).val = (y 0).val) (hi1 : (i 1).val = 64 * T + (y 1).val) (hi2 : (i 2).val = (y 2).val)
    (hi3 : (i 3).val = (y 3).val) :
    out0_4 (F := Ideal) x0 x1 x2 x3 y = Cert.Deletion.kOut A0 A1 D N i := by
  obtain ⟨s, r, j, v, rfl⟩ : ∃ s r j v, y = ix4 s r j v := ⟨y 0, y 1, y 2, y 3, eq_ix4 y⟩
  obtain ⟨s', b, j', v', rfl⟩ : ∃ s' b j' v', i = ix4 s' b j' v' := ⟨i 0, i 1, i 2, i 3, eq_ix4 i⟩
  obtain rfl : s' = s := Fin.ext hi0
  obtain rfl : j' = j := Fin.ext hi2
  obtain rfl : v' = v := Fin.ext hi3
  have hb : b.val = 64 * T + r.val := hi1
  have e0 : (fun (k : Fin 128) (v : Fin 64) => x0 (ix3 r k v)) = fun k v => A0 (ix3 b k v) :=
    funext fun k => funext fun v => h0 _ _ hb rfl rfl
  have e1 : (fun (v : Fin 64) => x1 (ix3 r j' v)) = fun v => A1 (ix3 b j' v) :=
    funext fun v => h1 _ _ hb rfl rfl
  have e2 : (fun (k : Fin 128) => x2 (ix2 r k)) = fun k => D (ix2 b k) := funext fun k => h2 _ _ hb rfl
  have e3 : x3 (ix3 r (0 : Fin 1) (0 : Fin 1)) = N (ix3 b (0 : Fin 1) (0 : Fin 1)) := h3 _ _ hb rfl rfl
  have hs : s'.val = 0 ∨ s'.val = 1 := by have := s'.isLt; omega
  rcases hs with hs | hs
  · obtain rfl : s' = 0 := Fin.ext hs
    rw [Cert.KernelIdeal.BodyValue.out0_4_msg, Cert.Deletion.kOut_msg, e0, e2, e3]
  · obtain rfl : s' = 1 := Fin.ext hs
    rw [Cert.KernelIdeal.BodyValue.out0_4_prob, Cert.Deletion.kOut_prob, e1]

/-- WHAT POINT `t` WRITES BACK is block `t` of the kernel's function of the arrays the region finds. -/
theorem flushed_eq (c : Dev nD) (t : Fin cfg0.N) :
    (dats m 0 c).flushed 4 t = ((cfg0.win 4).blk t).view.read (Elt Ideal)
      (Cert.Deletion.kOut (V m c main_arg0) (V m c main_arg1) (V m c main_v14) (V m c main_v9)) := by
  rw [Cert.KernelIdeal.Value.flushed4]
  obtain ⟨-, -, -, -, -, -, -, -, -, -, -, o0, o1, o2, o3⟩ := idx_facts t
  funext y
  show out0_4 (iblk m c 0 t) (iblk m c 1 t) (iblk m c 2 t) (iblk m c 3 t) y
    = Cert.Deletion.kOut (V m c main_arg0) (V m c main_arg1) (V m c main_v14) (V m c main_v9) (((cfg0.win 4).blk t).view.emb y)
  refine block_eq (iblk m c 0 t) (iblk m c 1 t) (iblk m c 2 t) (iblk m c 3 t) _ _ _ _ t.val
    (fun x k a0 a1 a2 => iblk0_apply m c t x k a0 a1 a2) (fun x k a0 a1 a2 => iblk1_apply m c t x k a0 a1 a2)
    (fun x k a0 a1 => iblk2_apply m c t x k a0 a1) (fun x k a0 a1 a2 => iblk3_apply m c t x k a0 a1 a2) y _ ?_ ?_ ?_ ?_
  · show win0_4.index t (0 : Fin 4) * 2 + 1 * (y 0).val = (y 0).val; rw [o0]; omega
  · show win0_4.index t (1 : Fin 4) * 64 + 1 * (y 1).val = 64 * t.val + (y 1).val; rw [o1]; omega
  · show win0_4.index t (2 : Fin 4) * 128 + 1 * (y 2).val = (y 2).val; rw [o2]; omega
  · show win0_4.index t (3 : Fin 4) * 64 + 1 * (y 3).val = (y 3).val; rw [o3]; omega

/-- An index of the array is in point `t`'s block iff each coordinate is in the block's range on its axis. -/
theorem mem_blk (t : Fin cfg0.N) (i : S2x4096x128x64.Idx) :
    i ∈ ((cfg0.win 4).blk t).view.set ↔ ∀ a : Fin 4, win0_4.index t a * S2x64x128x64.size a ≤ (i a).val
      ∧ (i a).val < win0_4.index t a * S2x64x128x64.size a + S2x64x128x64.size a := by
  show i ∈ ((View.whole main_v15).slice (win0_4.rect t)).set ↔ _
  rw [View.set_slice_whole, Rect.mem_set_unit]
  exact Iff.rfl

/-- Every index of the array is in the block of the point its row falls to: row `b` is written by point `b / 64`. -/
theorem cover (i : S2x4096x128x64.Idx) :
    ∃ t : Fin cfg0.N, (cfg0.win 4).flush t = true ∧ i ∈ ((cfg0.win 4).blk t).view.set := by
  have hi0 : (i 0).val < 2 := (i 0).isLt
  have hi1 : (i 1).val < 4096 := (i 1).isLt
  have hi2 : (i 2).val < 128 := (i 2).isLt
  have hi3 : (i 3).val < 64 := (i 3).isLt
  have hN : cfg0.N = 64 := N_0
  refine ⟨⟨(i 1).val / 64, by rw [hN]; omega⟩, flush0_4 _, ?_⟩
  rw [mem_blk]
  obtain ⟨-, -, -, -, -, -, -, -, -, -, -, o0, o1, o2, o3⟩ := idx_facts ⟨(i 1).val / 64, by rw [hN]; omega⟩
  intro a
  match a with
  | ⟨0, _⟩ =>
    show win0_4.index _ (0 : Fin 4) * 2 ≤ (i 0).val ∧ (i 0).val < win0_4.index _ (0 : Fin 4) * 2 + 2
    rw [o0]; omega
  | ⟨1, _⟩ =>
    show win0_4.index _ (1 : Fin 4) * 64 ≤ (i 1).val ∧ (i 1).val < win0_4.index _ (1 : Fin 4) * 64 + 64
    rw [o1]; show (i 1).val / 64 * 64 ≤ (i 1).val ∧ (i 1).val < (i 1).val / 64 * 64 + 64; omega
  | ⟨2, _⟩ =>
    show win0_4.index _ (2 : Fin 4) * 128 ≤ (i 2).val ∧ (i 2).val < win0_4.index _ (2 : Fin 4) * 128 + 128
    rw [o2]; omega
  | ⟨3, _⟩ =>
    show win0_4.index _ (3 : Fin 4) * 64 ≤ (i 3).val ∧ (i 3).val < win0_4.index _ (3 : Fin 4) * 64 + 64
    rw [o3]; omega

/-- After the run the output array is the kernel's function of the arrays the region finds. -/
theorem final (c : Dev nD) :
    ((dats m 0 c).arrAt 4 cfg0.N : S2x4096x128x64.Idx → EReal)
      = Cert.Deletion.kOut (V m c main_arg0) (V m c main_arg1) (V m c main_v14) (V m c main_v9) :=
  (dats m 0 c).arrAt_eq_of_cover 4 _ (fun t _ => flushed_eq m c t) cover

/-- The kernel's run with its result named. -/
theorem run : θ_run defs (onTc (τ := τ) (main (F := Ideal))) ⟨m, fun _ => 0, ρ⟩ fun r => ∀ c : Dev nD,
      r.2.mem ((c : Thread nD τ).loc main_v15)
        = Cert.Deletion.kOut (m ((c : Thread nD τ).loc main_arg0)) (m ((c : Thread nD τ).loc main_arg1)) (V m c main_v14) (V m c main_v9)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (by rw [final m c, V_main_arg0 m c, V_main_arg1 m c]), (h c).2⟩)
    (Cert.KernelIdeal.Value.run_blocks m ρ)

end Cert.KernelIdeal.ArrayValue

end
-- ==== Proof.RefMsg.lean ====
/-
  The reference's message half read at an index: the stable argsort of the flags, the symbols taken along it, and the
  end-of-sequence vector written over the last positions.

  The operations that read more than one element of an operand are opened here by hand, each as a general lemma first:
  the second result of a two-operand sort along the last axis of a rectangle carries its second operand through the
  sorting permutation of the row; a take along the middle axis of a rank-3 array reads the start index signed and
  clamped; a scatter of one update at a zero index sets entry 0; a reduction by "and" of an array of ones is one; the
  sum of the widened flags of a row counts the set ones, so 128 less it counts the clear ones. The comparator on two
  widened flags is "the first clear, the second set", which makes the sorted position the specification's source
  position; being below 128, it passes the take's wrap and clamp unchanged and its in-bounds mask is one everywhere.
-/
import proofs.«417069_j22445499089174_3_alg».proof.Proof.ReadP
import proofs.«417069_j22445499089174_3_alg».proof.Proof.Spec
import Idealize.ShloMosaic.Lib.Pipeline.Value
import Idealize.ShloMosaic.Lib.StableHlo.Predicate
import Idealize.ShloMosaic.Lib.ReduceAll
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open Idealize.ShloMosaic.StableHlo.Predicate

/-! ## General lemmas: the operations that read several elements -/

theorem msg_along_ix2 {n m : Nat} (b : Fin n) (j k : Fin m) :
    Shape.Idx.along (s := (⟨2, ![n, m]⟩ : Shape)) (ix2 b j) (⟨1, Nat.one_lt_two⟩ : Fin 2) k = ix2 b k := by
  funext a
  match a with
  | ⟨0, _⟩ => rfl
  | ⟨1, _⟩ => rfl

theorem msg_sort2_snd_apply {n m : Nat} {α β : Type} (cmp : α × β → α × β → BitVec 1)
    (x : (⟨2, ![n, m]⟩ : Shape).Idx → α) (y : (⟨2, ![n, m]⟩ : Shape).Idx → β) (b : Fin n) (j : Fin m) :
    (Host.sort2 ⟨2, ![n, m]⟩ 1 cmp x y).2 (ix2 b j)
      = y (ix2 b (sortedFrom (fun k k' : Fin m => cmp (x (ix2 b k), y (ix2 b k)) (x (ix2 b k'), y (ix2 b k')) == 1#1) j)) := by
  have hF : (fun k k' : Fin m => cmp (x ((ix2 b j).along ⟨1, Nat.one_lt_two⟩ k), y ((ix2 b j).along ⟨1, Nat.one_lt_two⟩ k))
        (x ((ix2 b j).along ⟨1, Nat.one_lt_two⟩ k'), y ((ix2 b j).along ⟨1, Nat.one_lt_two⟩ k')) == 1#1)
      = fun k k' : Fin m => cmp (x (ix2 b k), y (ix2 b k)) (x (ix2 b k'), y (ix2 b k')) == 1#1 := by
    funext k k'
    rw [msg_along_ix2 b j k, msg_along_ix2 b j k']
  unfold Host.sort2
  rw [dif_pos (show (1 : Nat) < 2 from Nat.one_lt_two)]
  show y (Shape.Idx.along (ix2 b j) ⟨1, Nat.one_lt_two⟩ (sortedFrom (fun k k' : Fin m => cmp (x ((ix2 b j).along ⟨1, Nat.one_lt_two⟩ k), y ((ix2 b j).along ⟨1, Nat.one_lt_two⟩ k))
        (x ((ix2 b j).along ⟨1, Nat.one_lt_two⟩ k'), y ((ix2 b j).along ⟨1, Nat.one_lt_two⟩ k')) == 1#1) j)) = _
  rw [hF]
  exact congrArg y (msg_along_ix2 b j _)

/-- The dimension numbers of the take along axis 1 of a rank-3 array with the first axis a batch axis. -/
abbrev msg_takeAlongDims (B L V : Nat)
    (wf : GatherDims.WF ⟨3, ![B, L, V]⟩ ⟨3, ![B, L, 1]⟩ ⟨3, ![B, L, V]⟩ [2] [1] [0] [1] [0] 2 ![1, 1, V]) :
    GatherDims ⟨3, ![B, L, V]⟩ ⟨3, ![B, L, 1]⟩ ⟨3, ![B, L, V]⟩ where
  offsetDims := [2]
  collapsedSliceDims := [1]
  operandBatchingDims := [0]
  startIndicesBatchingDims := [0]
  startIndexMap := [1]
  indexVectorDim := 2
  sliceSizes := ![1, 1, V]
  wf := wf

theorem msg_gather_takeAlong_apply {α : Type} {B L V w : Nat} (hL : 0 < L)
    (wf : GatherDims.WF ⟨3, ![B, L, V]⟩ ⟨3, ![B, L, 1]⟩ ⟨3, ![B, L, V]⟩ [2] [1] [0] [1] [0] 2 ![1, 1, V])
    (x : (⟨3, ![B, L, V]⟩ : Shape).Idx → α) (idx : IVec ⟨3, ![B, L, 1]⟩ w) (b : Fin B) (j : Fin L) (v : Fin V) :
    Host.gather (msg_takeAlongDims B L V wf) x idx (ix3 b j v)
      = x (ix3 b (⟨min (idx (ix3 b j (0 : Fin 1))).toInt.toNat (L - 1), by omega⟩ : Fin L) v) := by
  unfold Host.gather
  congr 1
  funext a
  refine Fin.ext ?_
  show (msg_takeAlongDims B L V wf).start (ix3 b j v) idx a + (msg_takeAlongDims B L V wf).batchCoord (ix3 b j v) a
    + (msg_takeAlongDims B L V wf).offCoord (ix3 b j v) a = _
  fin_cases a
  · have h1 : (msg_takeAlongDims B L V wf).start (ix3 b j v) idx (0 : Fin 3) = 0 := rfl
    have h2 : (msg_takeAlongDims B L V wf).batchCoord (ix3 b j v) (0 : Fin 3) = b.val := rfl
    have h3 : (msg_takeAlongDims B L V wf).offCoord (ix3 b j v) (0 : Fin 3) = 0 := rfl
    show (msg_takeAlongDims B L V wf).start (ix3 b j v) idx (0 : Fin 3) + (msg_takeAlongDims B L V wf).batchCoord (ix3 b j v) (0 : Fin 3)
      + (msg_takeAlongDims B L V wf).offCoord (ix3 b j v) (0 : Fin 3) = b.val
    rw [h1, h2, h3]; omega
  · have h1 : (msg_takeAlongDims B L V wf).start (ix3 b j v) idx (1 : Fin 3) = min (idx (ix3 b j (0 : Fin 1))).toInt.toNat (L - 1) := by
      unfold GatherDims.start
      rw [dif_pos (show (1 : Fin 3) ∈ [(1 : Fin 3)] from List.mem_singleton.mpr rfl)]
      have hsi : (msg_takeAlongDims B L V wf).siIdx (ix3 b j v) ⟨List.idxOf (1 : Fin 3) (msg_takeAlongDims B L V wf).startIndexMap,
          List.idxOf_lt_length_iff.2 (show (1 : Fin 3) ∈ [(1 : Fin 3)] from List.mem_singleton.mpr rfl)⟩ = ix3 b j (0 : Fin 1) := by
        funext c; refine Fin.ext ?_
        match c with
        | ⟨0, _⟩ => rfl
        | ⟨1, _⟩ => rfl
        | ⟨2, _⟩ => rfl
      rw [hsi]
      rfl
    have h2 : (msg_takeAlongDims B L V wf).batchCoord (ix3 b j v) (1 : Fin 3) = 0 := rfl
    have h3 : (msg_takeAlongDims B L V wf).offCoord (ix3 b j v) (1 : Fin 3) = 0 := rfl
    show (msg_takeAlongDims B L V wf).start (ix3 b j v) idx (1 : Fin 3) + (msg_takeAlongDims B L V wf).batchCoord (ix3 b j v) (1 : Fin 3)
      + (msg_takeAlongDims B L V wf).offCoord (ix3 b j v) (1 : Fin 3) = min (idx (ix3 b j (0 : Fin 1))).toInt.toNat (L - 1)
    rw [h1, h2, h3]; omega
  · have h1 : (msg_takeAlongDims B L V wf).start (ix3 b j v) idx (2 : Fin 3) = 0 := rfl
    have h2 : (msg_takeAlongDims B L V wf).batchCoord (ix3 b j v) (2 : Fin 3) = 0 := rfl
    have h3 : (msg_takeAlongDims B L V wf).offCoord (ix3 b j v) (2 : Fin 3) = v.val := rfl
    show (msg_takeAlongDims B L V wf).start (ix3 b j v) idx (2 : Fin 3) + (msg_takeAlongDims B L V wf).batchCoord (ix3 b j v) (2 : Fin 3)
      + (msg_takeAlongDims B L V wf).offCoord (ix3 b j v) (2 : Fin 3) = v.val
    rw [h1, h2, h3]; omega

theorem msg_foldl_finRange_one {β : Type} {k : Nat} (hk : k = 1) (f : β → Fin k → β) (x : β) :
    (List.finRange k).foldl f x = f x ⟨0, by omega⟩ := by
  subst hk
  rfl

theorem msg_scatter_set_zero {α : Type} {N w : Nat} (hN : 0 < N) (d : ScatterDims ⟨1, ![N]⟩ ⟨1, ![1]⟩ ⟨0, ![]⟩)
    (hiw : d.insertedWindowDims = [0])
    (x : (⟨1, ![N]⟩ : Shape).Idx → α) (idx : IVec ⟨1, ![1]⟩ w) (upd : (⟨0, ![]⟩ : Shape).Idx → α)
    (hidx : ∀ i, (idx i).toInt = 0) (v : Fin N) :
    Host.scatter d (fun _ b => b) x idx upd (ix1 v) = if v.val = 0 then upd ix0 else x (ix1 v) := by
  have hk : (⟨0, ![]⟩ : Shape).numel = 1 := Shape.numel_eq_one (fun a => a.elim0)
  have hs : ∀ j a, d.start j idx a = 0 := by
    intro j a; unfold ScatterDims.start; split
    · exact hidx _
    · rfl
  have hw : ∀ j a, d.window j a = 0 := by
    intro j a; unfold ScatterDims.window
    rw [dif_neg]
    have ha : a = 0 := Subsingleton.elim _ _
    subst ha
    simp [ScatterDims.sKept, Shape.kept, hiw]
  have hr : ∀ j, d.resultIdx? j idx = some (ix1 (⟨0, hN⟩ : Fin N)) := by
    intro j; unfold ScatterDims.resultIdx?
    rw [dif_pos (fun a => by
      rw [hs, hw]
      have ha : a = 0 := Subsingleton.elim _ _
      subst ha
      exact ⟨le_refl _, by show ((0 : Int) + ((0 : Nat) : Int)) < ((N : Nat) : Int); omega⟩)]
    congr 1
    funext a
    have ha : a = 0 := Subsingleton.elim _ _
    subst ha
    apply Fin.ext
    show (d.start j idx 0 + (d.window j 0 : Int)).toNat = 0
    rw [hs, hw]; rfl
  unfold Host.scatter
  rw [msg_foldl_finRange_one hk]
  simp only [hr]
  rw [eq_ix0 ((⟨0, ![]⟩ : Shape).rowMajor.symm _)]
  by_cases hv : v.val = 0
  · rw [if_pos hv, if_pos (by congr 1; exact Fin.ext hv)]
  · rw [if_neg hv, if_neg (fun e => hv (by have := congrFun e 0; exact congrArg Fin.val this))]

theorem msg_foldl_andi_all_one {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact msg_foldl_andi_all_one f hf l

theorem msg_reduce_andi_all_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact msg_foldl_andi_all_one (fun n => x (s.rowMajor.symm n)) (fun n => hx _) _

theorem msg_toNat_ofNat_small (p : Nat) (hp : p < 2 ^ 31) : (BitVec.ofNat 32 p).toNat = p := by
  rw [BitVec.toNat_ofNat]; exact Nat.mod_eq_of_lt (by omega)

theorem msg_slt_zero_small (p : Nat) (hp : p < 2 ^ 31) : IntOp.cmpi .slt (BitVec.ofNat 32 p) 0#32 = 0#1 := by
  refine eq_zero_of_ne_one fun h => ?_
  have := (slt_iff_toNat (a := BitVec.ofNat 32 p) (b := 0#32) (by rw [msg_toNat_ofNat_small p hp]; exact hp) (by decide)).1 h
  exact absurd this (by simp)

theorem msg_sge_zero_small (p : Nat) (hp : p < 2 ^ 31) : IntOp.cmpi .sge (BitVec.ofNat 32 p) 0#32 = 1#1 :=
  (sge_iff_toNat (a := BitVec.ofNat 32 p) (b := 0#32) (by rw [msg_toNat_ofNat_small p hp]; exact hp) (by decide)).2 (by simp)

theorem msg_sle_127_small (p : Nat) (hp : p ≤ 127) : IntOp.cmpi .sle (BitVec.ofNat 32 p) 127#32 = 1#1 :=
  (sle_iff_toNat (a := BitVec.ofNat 32 p) (b := 127#32) (by rw [msg_toNat_ofNat_small p (by omega)]; omega) (by decide)).2
    (by rw [msg_toNat_ofNat_small p (by omega)]; exact hp)

theorem msg_toInt_toNat_small (p : Nat) (hp : p < 2 ^ 31) : (BitVec.ofNat 32 p).toInt.toNat = p := by
  rw [toInt_ofNat_small p hp]; exact Int.toNat_natCast p

/-- The take's start index, already in range: neither the wrap of a negative index nor the clamp changes it. -/
theorem msg_wrap_small (p : Nat) (hp : p < 2 ^ 31) :
    Scalar.select (IntOp.cmpi .slt (BitVec.ofNat 32 p) 0#32) (IntOp.addi (BitVec.ofNat 32 p) 128#32) (BitVec.ofNat 32 p)
      = BitVec.ofNat 32 p := by
  rw [msg_slt_zero_small p hp, select_zero]

theorem msg_ij_eq_ix2 {n m : Nat} (p : Fin n) (q : Fin m) : ij p q = ix2 p q := by
  funext a
  match a with
  | ⟨0, _⟩ => rfl
  | ⟨1, _⟩ => rfl

open Cert.Deletion in
theorem msg_card_set_add_nkept (mask : SMask.Idx → BitVec 1) (b : Fin 4096) :
    (Finset.univ.filter fun q : Fin 128 => mask (ij b q) = 1#1).card + nkept mask b = 128 := by
  unfold nkept
  have h := Finset.card_filter_add_card_filter_not (s := (Finset.univ : Finset (Fin 128)))
    (fun q : Fin 128 => mask (ij b q) = 1#1)
  rw [Finset.card_univ, Fintype.card_fin] at h
  have e : (Finset.univ.filter fun k : Fin 128 => del mask b k = false)
      = Finset.univ.filter fun a : Fin 128 => ¬mask (ij b a) = 1#1 := by
    ext q
    simp only [Finset.mem_filter, Finset.mem_univ, true_and, del, msg_ij_eq_ix2, beq_eq_false_iff_ne, ne_eq]
  rw [e]
  exact h

/-- The comparison "position at or past the kept count": the count of set flags `c` as a word, 128 less it the kept count. -/
theorem msg_sge_sub_iff (c : BitVec 32) (cnt nk j : Nat) (hc : c.toNat = cnt) (hs : cnt + nk = 128) (hj : j < 128) :
    IntOp.cmpi .sge (BitVec.ofNat 32 j) (IntOp.subi 128#32 c) = 1#1 ↔ nk ≤ j := by
  have hsub : (IntOp.subi 128#32 c).toNat = nk := by
    show (128#32 - c).toNat = nk
    rw [BitVec.toNat_sub, hc]
    simp only [BitVec.toNat_ofNat]
    omega
  rw [sge_iff_toNat (by rw [msg_toNat_ofNat_small j (by omega)]; omega) (by rw [hsub]; omega), hsub, msg_toNat_ofNat_small j (by omega)]

/-- The signed "less than" of two flags widened to 32 bits: the first clear and the second set. -/
theorem msg_slt_flags (m m' : BitVec 1) :
    (IntOp.cmpi .slt (m.setWidth 32) (m'.setWidth 32) == 1#1) = (!(m == 1#1) && (m' == 1#1)) := by
  rcases BitVec.eq_zero_or_eq_one m with rfl | rfl <;> rcases BitVec.eq_zero_or_eq_one m' with rfl | rfl <;> decide

/-! ## The reference's stages at an index -/

/-- THE ARGSORT: at row `b`, sorted position `j`, the word of the specification's source position. -/
theorem msg_v1 (x2 : (⟨S4096x128, .i1⟩ : BufTy).Contents (Elt Ideal)) (b : Fin 4096) (j : Fin 128) :
    ReadP.val_main_v1 (F := Ideal) x2 (ix2 b j) = BitVec.ofNat 32 (Cert.Deletion.src x2 b j).val := by
  have hF : (fun k k' : Fin 128 => comparator_i32_i32_d1
        (ReadP.val_main_v0 (F := Ideal) x2 (ix2 b k), ReadP.val_main_call0_v0 (F := Ideal) (ix2 b k))
        (ReadP.val_main_v0 (F := Ideal) x2 (ix2 b k'), ReadP.val_main_call0_v0 (F := Ideal) (ix2 b k')) == 1#1)
      = Cert.Deletion.before x2 b := by
    funext k k'
    exact msg_slt_flags (x2 (ix2 b k)) (x2 (ix2 b k'))
  unfold ReadP.val_main_v1
  refine (msg_sort2_snd_apply comparator_i32_i32_d1 (ReadP.val_main_v0 (F := Ideal) x2) (ReadP.val_main_call0_v0 (F := Ideal)) b j).trans ?_
  exact congrArg (fun B : Fin 128 → Fin 128 → Bool => BitVec.ofNat 32 (sortedFrom B j).val) hF

/-- The take's start index after the wrap of negative indices: still the source position's word. -/
theorem msg_v4 (x2 : (⟨S4096x128, .i1⟩ : BufTy).Contents (Elt Ideal)) (b : Fin 4096) (j : Fin 128) (k : Fin 1) :
    ReadP.val_main_call1_v4 (F := Ideal) x2 (ix3 b j k) = BitVec.ofNat 32 (Cert.Deletion.src x2 b j).val := by
  have h : ReadP.idx_main_v2 (ix3 b j k) = ix2 b j := by
    funext a
    match a with
    | ⟨0, _⟩ => rfl
    | ⟨1, _⟩ => rfl
  rw [ReadP.val_main_call1_v4_apply, ReadP.val_main_call1_v1_apply, ReadP.val_main_call1_v3_apply, ReadP.val_main_v2_apply,
    ReadP.val_main_call1_v0_apply, ReadP.val_main_call1_c_apply, ReadP.val_main_call1_v2_apply, ReadP.val_main_call1_c_0_apply,
    h, msg_v1]
  exact msg_wrap_small _ (by have := (Cert.Deletion.src x2 b j).isLt; omega)

/-- The take's in-bounds test holds at every start index. -/
theorem msg_v10 (x2 : (⟨S4096x128, .i1⟩ : BufTy).Contents (Elt Ideal)) (i : S4096x128x1.Idx) :
    ReadP.val_main_call1_v10 (F := Ideal) x2 i = 1#1 := by
  obtain ⟨b, j, k, rfl⟩ : ∃ (b : Fin 4096) (j : Fin 128) (k : Fin 1), i = ix3 b j k := ⟨_, _, _, eq_ix3 i⟩
  have hp : (Cert.Deletion.src x2 b j).val < 128 := (Cert.Deletion.src x2 b j).isLt
  rw [ReadP.val_main_call1_v10_apply, ReadP.val_main_call1_v6_apply, ReadP.val_main_call1_v9_apply, msg_v4,
    ReadP.val_main_call1_v5_apply, ReadP.val_main_call1_c_2_apply, ReadP.val_main_call1_v8_apply, ReadP.val_main_call1_v7_apply,
    ReadP.val_main_call1_c_1_apply, msg_sge_zero_small _ (by omega), msg_sle_127_small _ (by omega)]
  decide

/-- So its reduction by "and" over the size-one axis is one everywhere. -/
theorem msg_v11 (x2 : (⟨S4096x128, .i1⟩ : BufTy).Contents (Elt Ideal)) (i : S4096x128.Idx) :
    ReadP.val_main_call1_v11 (F := Ideal) x2 i = 1#1 := by
  unfold ReadP.val_main_call1_v11
  exact msg_reduce_andi_all_one _ _ _ _ (msg_v10 x2) (fun _ => rfl) i

/-- A start index that is a position's word is that position after the clamp. -/
theorem msg_clamp_fin (w : BitVec 32) (p : Fin 128) (hw : w = BitVec.ofNat 32 p.val) (h : min w.toInt.toNat (128 - 1) < 128) :
    (⟨min w.toInt.toNat (128 - 1), h⟩ : Fin 128) = p := by
  apply Fin.ext
  show min w.toInt.toNat (128 - 1) = p.val
  rw [hw, msg_toInt_toNat_small p.val (by have := p.isLt; omega)]
  have := p.isLt
  omega

/-- THE TAKE: the symbol at the source position. -/
theorem msg_v12 (x0 : (⟨S4096x128x64, .f32⟩ : BufTy).Contents (Elt Ideal)) (x2 : (⟨S4096x128, .i1⟩ : BufTy).Contents (Elt Ideal))
    (b : Fin 4096) (j : Fin 128) (v : Fin 64) :
    ReadP.val_main_call1_v12 (F := Ideal) x0 x2 (ix3 b j v) = x0 (ix3 b (Cert.Deletion.src x2 b j) v) := by
  unfold ReadP.val_main_call1_v12
  refine (msg_gather_takeAlong_apply (by decide) gather_S4096x128x64_S4096x128x1_S4096x128x64_2_1_0_0_1_2_1164.wf x0
    (ReadP.val_main_call1_v4 (F := Ideal) x2) b j v).trans ?_
  exact congrArg (fun q : Fin 128 => x0 (ix3 b q v)) (msg_clamp_fin _ _ (msg_v4 x2 b j 0) _)

/-- The take with its fill for out-of-bounds indices: the in-bounds mask is one, so it is the take. -/
theorem msg_v3 (x0 : (⟨S4096x128x64, .f32⟩ : BufTy).Contents (Elt Ideal)) (x2 : (⟨S4096x128, .i1⟩ : BufTy).Contents (Elt Ideal))
    (b : Fin 4096) (j : Fin 128) (v : Fin 64) :
    ReadP.val_main_v3 (F := Ideal) x0 x2 (ix3 b j v) = x0 (ix3 b (Cert.Deletion.src x2 b j) v) := by
  rw [ReadP.val_main_v3_apply, ReadP.val_main_call1_v13_apply, msg_v11, select_one, msg_v12]

/-- THE TAIL TEST: position `j` is at or past the kept count. -/
theorem msg_v13 (x2 : (⟨S4096x128, .i1⟩ : BufTy).Contents (Elt Ideal)) (b : Fin 4096) (j : Fin 128) :
    ReadP.val_main_v13 (F := Ideal) x2 (ix2 b j) = 1#1 ↔ Cert.Deletion.nkept x2 b ≤ j.val := by
  rw [ReadP.val_main_v13_apply, ReadP.val_main_v11_apply, ReadP.val_main_v8_apply, ReadP.val_main_v7_apply,
    ReadP.val_main_v12_apply, ReadP.val_main_v10_apply, ReadP.val_main_v9_apply, ReadP.val_main_c_0_apply, ReadP.val_main_v6_apply]
  have h6 : ReadP.idx_main_v6 (ReadP.idx_main_v12 (ix2 b j)) = ix1 b := by
    funext a
    match a with
    | ⟨0, _⟩ => rfl
  rw [h6]
  exact msg_sge_sub_iff _ _ _ j.val
    (toNat_reduce_count_cols (by norm_num) x2 natLt_1_32 reducesTo_S4096x128_S4096_d1 h_S_ (ix1 b))
    (msg_card_set_add_nkept x2 b) j.isLt

/-- THE SCATTER: the end-of-sequence vector. -/
theorem msg_v16 (v : Fin 64) : ReadP.val_main_v16 (F := Ideal) (ix1 v) = Cert.Deletion.eos v := by
  unfold ReadP.val_main_v16
  rw [msg_scatter_set_zero (by decide) scatter_S64_S1_S__n_0_0_0 rfl _ _ _
    (fun i => by rw [ReadP.val_main_v15_apply, ReadP.val_main_c_1_apply]; rfl) v]
  unfold Cert.Deletion.eos
  by_cases hv : v.val = 0
  · rw [if_pos hv, if_pos hv, ReadP.val_main_cst_2_apply]
    exact Ideal.ofBits_one_f32
  · rw [if_neg hv, if_neg hv, ReadP.val_main_v14_apply, ReadP.val_main_cst_apply]
    exact Ideal.ofBits_zero_f32

/-- The reference's message half is the specification's. -/
theorem msg_eq (x0 : (⟨S4096x128x64, .f32⟩ : BufTy).Contents (Elt Ideal)) (x2 : (⟨S4096x128, .i1⟩ : BufTy).Contents (Elt Ideal))
    (b : Fin 4096) (j : Fin 128) (v : Fin 64) :
    Cert.ReferenceIdeal.ReadP.val_main_v18 (F := Ideal) x0 x2 (ix3 b j v) = Cert.Deletion.msgOut x0 x2 b j v := by
  have h1 : ReadP.idx_main_v17 (ReadP.idx_main_call2_v0 (ix3 b j v)) = ix2 b j := by
    funext a
    match a with
    | ⟨0, _⟩ => rfl
    | ⟨1, _⟩ => rfl
  have h2 : ReadP.idx_main_call2_v1 (ix3 b j v) = ix1 v := by
    funext a
    match a with
    | ⟨0, _⟩ => rfl
  rw [ReadP.val_main_v18_apply, ReadP.val_main_call2_v0_apply, ReadP.val_main_v17_apply, ReadP.val_main_call2_v1_apply,
    h1, h2, msg_v16, msg_v3]
  unfold Cert.Deletion.msgOut
  by_cases h : Cert.Deletion.nkept x2 b ≤ j.val
  · rw [if_pos h, (msg_v13 x2 b j).2 h, select_one]
  · rw [if_neg h, eq_zero_of_ne_one (fun e => h ((msg_v13 x2 b j).1 e)), select_zero]

end Cert.ReferenceIdeal.RefValue

end
-- ==== Proof.RefProb.lean ====
/-
  The reference's probability half read at an index, and the two halves stacked: the reference's result is the
  specification's function of the three arguments.
-/
import proofs.«417069_j22445499089174_3_alg».proof.Proof.ReadP
import proofs.«417069_j22445499089174_3_alg».proof.Proof.RefMsg
import proofs.«417069_j22445499089174_3_alg».proof.Proof.Spec
import Idealize.ShloMosaic.Lib.Pipeline.Value
import Idealize.ShloMosaic.PureOps.Ideal.Laws
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-! ## The probability half: a one-entry piece in front of a 63-entry piece -/

/-- Entry 0 of the joined array is the one entry of the front piece. -/
private theorem v26_zero (x1 : (⟨S4096x128x64, .f32⟩ : BufTy).Contents (Elt Ideal)) (b : Fin 4096) (j : Fin 128) (v : Fin 64)
    (hv : v.val = 0) :
    Cert.ReferenceIdeal.ReadP.val_main_v26 (F := Ideal) x1 (ix3 b j v)
      = Cert.ReferenceIdeal.ReadP.val_main_v25 (F := Ideal) x1 (ix3 b j (0 : Fin 1)) := by
  unfold Cert.ReferenceIdeal.ReadP.val_main_v26
  exact concatenate_pair_apply_left (t := S4096x128x64) (s₁ := S4096x128x1) (s₂ := S4096x128x63) (2 : Fin 3) _ _
    concatenates_S4096x128x1_S4096x128x63_S4096x128x64_d2 (ix3 b j v) rfl (ix3 b j (0 : Fin 1))
    (fun a => by
      match a with
      | ⟨0, _⟩ => rfl
      | ⟨1, _⟩ => rfl
      | ⟨2, _⟩ => exact hv.symm)

/-- Entry `k + 1` of the joined array is entry `k` of the back piece. -/
private theorem v26_succ (x1 : (⟨S4096x128x64, .f32⟩ : BufTy).Contents (Elt Ideal)) (b : Fin 4096) (j : Fin 128) (k : Fin 63) :
    Cert.ReferenceIdeal.ReadP.val_main_v26 (F := Ideal) x1 (ix3 b j k.succ)
      = Cert.ReferenceIdeal.ReadP.val_main_v21 (F := Ideal) x1 (ix3 b j k) := by
  unfold Cert.ReferenceIdeal.ReadP.val_main_v26
  exact concatenate_pair_apply_right (t := S4096x128x64) (s₁ := S4096x128x1) (s₂ := S4096x128x63) (2 : Fin 3) _ _
    concatenates_S4096x128x1_S4096x128x63_S4096x128x64_d2 (ix3 b j k.succ) rfl rfl (ix3 b j k)
    (fun a ha => by
      match a with
      | ⟨0, _⟩ => rfl
      | ⟨1, _⟩ => rfl
      | ⟨2, _⟩ => exact absurd rfl ha)
    rfl

/-- Entry `k` of the back piece: entry `k + 1` of the argument, scaled. -/
private theorem v21_at (x1 : (⟨S4096x128x64, .f32⟩ : BufTy).Contents (Elt Ideal)) (b : Fin 4096) (j : Fin 128) (k : Fin 63) :
    Cert.ReferenceIdeal.ReadP.val_main_v21 (F := Ideal) x1 (ix3 b j k) = x1 (ix3 b j k.succ) * Cert.Deletion.c9 := by
  rw [Cert.ReferenceIdeal.ReadP.val_main_v21_apply, Cert.ReferenceIdeal.ReadP.val_main_v19_apply,
    Cert.ReferenceIdeal.ReadP.val_main_v20_apply, Cert.ReferenceIdeal.ReadP.val_main_cst_3_apply]
  simp only [Ideal.mulf_def, Ideal.ofBits_def]
  unfold Cert.Deletion.c9
  refine congrArg (· * _) (congrArg x1 (funext fun a => ?_))
  match a with
  | ⟨0, _⟩ => rfl
  | ⟨1, _⟩ => rfl
  | ⟨2, _⟩ => exact Fin.ext (by show 1 + k.val = k.val + 1; omega)

/-- The one entry of the front piece: one less the sum of the 63 scaled entries. -/
private theorem v25_at (x1 : (⟨S4096x128x64, .f32⟩ : BufTy).Contents (Elt Ideal)) (b : Fin 4096) (j : Fin 128) :
    Cert.ReferenceIdeal.ReadP.val_main_v25 (F := Ideal) x1 (ix3 b j (0 : Fin 1))
      = 1 - ∑ k : Fin 63, x1 (ix3 b j k.succ) * Cert.Deletion.c9 := by
  rw [Cert.ReferenceIdeal.ReadP.val_main_v25_apply, Cert.ReferenceIdeal.ReadP.val_main_v24_apply,
    Cert.ReferenceIdeal.ReadP.val_main_cst_5_apply, Cert.ReferenceIdeal.ReadP.val_main_v23_apply,
    Cert.ReferenceIdeal.ReadP.val_main_v22_apply, Cert.ReferenceIdeal.ReadP.val_main_cst_4_apply]
  simp only [Ideal.subf_def, Ideal.ofBits_def, Ideal.ofBits_one_f32, Ideal.ofBits_zero_f32, zero_add]
  refine congrArg (1 - ·) (Finset.sum_congr rfl fun k _ => ?_)
  rw [← v21_at x1 b j k]
  refine congrArg (Cert.ReferenceIdeal.ReadP.val_main_v21 (F := Ideal) x1) (funext fun a => ?_)
  match a with
  | ⟨0, _⟩ => rfl
  | ⟨1, _⟩ => rfl
  | ⟨2, _⟩ => rfl

/-- The reference's probability half is the specification's. -/
theorem prob_eq (x1 : (⟨S4096x128x64, .f32⟩ : BufTy).Contents (Elt Ideal)) (b : Fin 4096) (j : Fin 128) (v : Fin 64) :
    Cert.ReferenceIdeal.ReadP.val_main_v26 (F := Ideal) x1 (ix3 b j v) = Cert.Deletion.probOut x1 b j v := by
  unfold Cert.Deletion.probOut
  by_cases hv : v.val = 0
  · rw [if_pos hv, v26_zero x1 b j v hv, v25_at]
  · rw [if_neg hv]
    -- a nonzero entry is a successor
    obtain ⟨k, rfl⟩ : ∃ k : Fin 63, v = k.succ :=
      ⟨⟨v.val - 1, by have := v.isLt; omega⟩, Fin.ext (by show v.val = v.val - 1 + 1; omega)⟩
    rw [v26_succ, v21_at]

/-! ## The two halves stacked along a new leading axis -/

/-- Half 0 of the stack is the message half. -/
private theorem v29_zero (x0 x1 : (⟨S4096x128x64, .f32⟩ : BufTy).Contents (Elt Ideal)) (x2 : (⟨S4096x128, .i1⟩ : BufTy).Contents (Elt Ideal))
    (b : Fin 4096) (j : Fin 128) (v : Fin 64) :
    Cert.ReferenceIdeal.ReadP.val_main_v29 (F := Ideal) x0 x1 x2 (ix4 (0 : Fin 2) b j v)
      = Cert.ReferenceIdeal.ReadP.val_main_v18 (F := Ideal) x0 x2 (ix3 b j v) := by
  have h : Cert.ReferenceIdeal.ReadP.val_main_v29 (F := Ideal) x0 x1 x2 (ix4 (0 : Fin 2) b j v)
      = Cert.ReferenceIdeal.ReadP.val_main_v27 (F := Ideal) x0 x2 (ix4 (0 : Fin 1) b j v) := by
    unfold Cert.ReferenceIdeal.ReadP.val_main_v29
    exact concatenate_pair_apply_left (t := S2x4096x128x64) (s₁ := S1x4096x128x64) (s₂ := S1x4096x128x64) (0 : Fin 4) _ _
      concatenates_S1x4096x128x64_S1x4096x128x64_S2x4096x128x64_d0 (ix4 (0 : Fin 2) b j v) rfl (ix4 (0 : Fin 1) b j v)
      (fun a => by
        match a with
        | ⟨0, _⟩ => rfl
        | ⟨1, _⟩ => rfl
        | ⟨2, _⟩ => rfl
        | ⟨3, _⟩ => rfl)
  rw [h, Cert.ReferenceIdeal.ReadP.val_main_v27_apply]
  refine congrArg (Cert.ReferenceIdeal.ReadP.val_main_v18 (F := Ideal) x0 x2) (funext fun a => ?_)
  match a with
  | ⟨0, _⟩ => rfl
  | ⟨1, _⟩ => rfl
  | ⟨2, _⟩ => rfl

/-- Half 1 of the stack is the probability half. -/
private theorem v29_one (x0 x1 : (⟨S4096x128x64, .f32⟩ : BufTy).Contents (Elt Ideal)) (x2 : (⟨S4096x128, .i1⟩ : BufTy).Contents (Elt Ideal))
    (b : Fin 4096) (j : Fin 128) (v : Fin 64) :
    Cert.ReferenceIdeal.ReadP.val_main_v29 (F := Ideal) x0 x1 x2 (ix4 (1 : Fin 2) b j v)
      = Cert.ReferenceIdeal.ReadP.val_main_v26 (F := Ideal) x1 (ix3 b j v) := by
  have h : Cert.ReferenceIdeal.ReadP.val_main_v29 (F := Ideal) x0 x1 x2 (ix4 (1 : Fin 2) b j v)
      = Cert.ReferenceIdeal.ReadP.val_main_v28 (F := Ideal) x1 (ix4 (0 : Fin 1) b j v) := by
    unfold Cert.ReferenceIdeal.ReadP.val_main_v29
    exact concatenate_pair_apply_right (t := S2x4096x128x64) (s₁ := S1x4096x128x64) (s₂ := S1x4096x128x64) (0 : Fin 4) _ _
      concatenates_S1x4096x128x64_S1x4096x128x64_S2x4096x128x64_d0 (ix4 (1 : Fin 2) b j v) rfl rfl (ix4 (0 : Fin 1) b j v)
      (fun a ha => by
        match a with
        | ⟨0, _⟩ => exact absurd rfl ha
        | ⟨1, _⟩ => rfl
        | ⟨2, _⟩ => rfl
        | ⟨3, _⟩ => rfl)
      rfl
  rw [h, Cert.ReferenceIdeal.ReadP.val_main_v28_apply]
  refine congrArg (Cert.ReferenceIdeal.ReadP.val_main_v26 (F := Ideal) x1) (funext fun a => ?_)
  match a with
  | ⟨0, _⟩ => rfl
  | ⟨1, _⟩ => rfl
  | ⟨2, _⟩ => rfl

/-- The reference's result is the specification's function of the arguments. -/
theorem out_eq (x0 x1 : (⟨S4096x128x64, .f32⟩ : BufTy).Contents (Elt Ideal)) (x2 : (⟨S4096x128, .i1⟩ : BufTy).Contents (Elt Ideal)) :
    Cert.ReferenceIdeal.ReadP.val_main_v29 (F := Ideal) x0 x1 x2 = Cert.Deletion.out x0 x1 x2 := by
  have key : ∀ (s : Fin 2) (b : Fin 4096) (j : Fin 128) (v : Fin 64),
      Cert.ReferenceIdeal.ReadP.val_main_v29 (F := Ideal) x0 x1 x2 (ix4 s b j v) = Cert.Deletion.out x0 x1 x2 (ix4 s b j v) := by
    intro s b j v
    match s with
    | ⟨0, _⟩ =>
      exact (v29_zero x0 x1 x2 b j v).trans ((msg_eq x0 x2 b j v).trans (Cert.Deletion.out_msg x0 x1 x2 b j v).symm)
    | ⟨1, _⟩ =>
      exact (v29_one x0 x1 x2 b j v).trans ((prob_eq x1 b j v).trans (Cert.Deletion.out_prob x0 x1 x2 b j v).symm)
  funext i
  -- every index is the index of its four coordinates
  exact (congrArg (Cert.ReferenceIdeal.ReadP.val_main_v29 (F := Ideal) x0 x1 x2) (eq_ix4 i)).trans
    ((key (i 0) (i 1) (i 2) (i 3)).trans (congrArg (Cert.Deletion.out x0 x1 x2) (eq_ix4 i)).symm)

end Cert.ReferenceIdeal.RefValue

end
-- ==== Proof.lean ====
/-
  A batch of 4096 rows, each of 128 symbols over a vocabulary of 64, goes through a deletion channel: in every row the
  flagged symbols are deleted, the kept ones close up to the front in their order, and the freed positions at the end
  are filled with the end-of-sequence vector; the per-symbol probabilities are scaled by 9/10 (as a single-precision
  word) away from vocabulary entry 0, which takes what is left of 1.

  The reference sorts each row's positions by the flag with a stable argsort, takes the symbols along the sorted
  positions and writes the end-of-sequence vector from the kept count on. The kernel never sorts: on the host it counts,
  for every position, the slot it goes to — the kept positions below it if it is kept, all kept positions plus the
  deleted ones below it if it is deleted — and in the kernel body it multiplies the one-hot matrix "slot of k is j" with
  the symbols, split in a high and a low part, adds the two products and selects the end-of-sequence vector past the
  kept count. Over the extended reals the split is exact on real entries (the low part is x − x = 0; this is where the
  precondition that the inputs are finite is used), the one-hot row picks one symbol, and that symbol is the
  reference's because the counted slot is the rank of a position in the stable order: slot and sorted position are
  inverse permutations (Proof/Perm.lean over Proof/LibSortRank.lean). The probability halves agree term by term; the
  kernel's sum over all 64 entries with entry 0 masked is the reference's sum over the other 63.

  Both sides are read index by index against one specification (Proof/Spec.lean): the kernel's blocks and its host
  arithmetic in Proof/KernelBody.lean, Proof/KernelArray.lean and Proof/KernelHost.lean (the host's running sums also as a
  general lemma in Proof/LibRunSum.lean), the reference's operations in Proof/RefMsg.lean and Proof/RefProb.lean, the two joined in Proof/Bridge.lean, the
  precondition opened in Proof/Finite.lean.
-/
import proofs.«417069_j22445499089174_3_alg».proof.Defs
import proofs.«417069_j22445499089174_3_alg».proof.Proof.Gen.Kernel
import proofs.«417069_j22445499089174_3_alg».proof.Proof.Gen.Kernel.Skeleton
import proofs.«417069_j22445499089174_3_alg».proof.Proof.Gen.Kernel.Launch
import proofs.«417069_j22445499089174_3_alg».proof.Proof.Gen.Kernel.Points
import proofs.«417069_j22445499089174_3_alg».proof.Proof.Gen.Kernel.Frame
import proofs.«417069_j22445499089174_3_alg».proof.Proof.Gen.KernelIdeal
import proofs.«417069_j22445499089174_3_alg».proof.Proof.Gen.KernelIdeal.Skeleton
import proofs.«417069_j22445499089174_3_alg».proof.Proof.Gen.KernelIdeal.Launch
import proofs.«417069_j22445499089174_3_alg».proof.Proof.Gen.KernelIdeal.Points
import proofs.«417069_j22445499089174_3_alg».proof.Proof.Gen.KernelIdeal.Frame
import proofs.«417069_j22445499089174_3_alg».proof.Proof.Gen.ReferenceIdeal
import proofs.«417069_j22445499089174_3_alg».proof.Proof.Gen.Pre_finite_inputs
import proofs.«417069_j22445499089174_3_alg».proof.Proof.Gen.KernelIdeal.Value
import proofs.«417069_j22445499089174_3_alg».proof.Proof.RunP
import proofs.«417069_j22445499089174_3_alg».proof.Proof.ReadP
import proofs.«417069_j22445499089174_3_alg».proof.Proof.Spec
import proofs.«417069_j22445499089174_3_alg».proof.Proof.Perm
import proofs.«417069_j22445499089174_3_alg».proof.Proof.LibRunSum
import proofs.«417069_j22445499089174_3_alg».proof.Proof.Bridge
import proofs.«417069_j22445499089174_3_alg».proof.Proof.Finite
import proofs.«417069_j22445499089174_3_alg».proof.Proof.KernelHost
import proofs.«417069_j22445499089174_3_alg».proof.Proof.KernelArray
import proofs.«417069_j22445499089174_3_alg».proof.Proof.RefMsg
import proofs.«417069_j22445499089174_3_alg».proof.Proof.RefProb
import Idealize.ShloMosaic.Adequacy
import Idealize.ShloMosaic.Init

noncomputable section

namespace Cert.Proof

open Idealize.ShloMosaic Idealize.ShloMosaic.TcCoe Idealize.SL.Sem

section
variable [hK : Cert.Kernel.Facts] [hKI : Cert.KernelIdeal.Facts] [hRI : Cert.ReferenceIdeal.Facts] [hP : Cert.Pre_finite_inputs.Facts]

/-- The two rounding windows the idealization removed are the identity over the extended reals. -/
theorem preserves : Cert.preserves_Kernel_KernelIdeal :=
  ⟨IdealRules.truncf_extf.statement _ _ _, IdealRules.truncf_extf.statement _ _ _⟩

end

/-- Both idealized programs end at the specification's function of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Deletion.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.ArrayValue.run m ρ)
    exact Cert.Deletion.kOut_eq_out _ _ _
      (@Cert.FiniteInputs.msg_real Cert.Pre_finite_inputs.Gen.facts m hpre c) _ _
      (fun b k => Cert.KernelIdeal.HostValue.dest_eq m c b k) (fun b => Cert.KernelIdeal.HostValue.nkept_eq m c b)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v29_eq, Cert.ReferenceIdeal.RefValue.out_eq, (hagree c).1, (hagree c).2.1,
      (hagree c).2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.ValueP.run (F := Ideal) m ρ),
    preserves, algebraic⟩

end Cert.Proof

end
